-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x32 : Shape := ⟨2, ![8192, 32]⟩
abbrev S8192x2048 : Shape := ⟨2, ![8192, 2048]⟩
abbrev S8192x256 : Shape := ⟨2, ![8192, 256]⟩
abbrev S3104x1024 : Shape := ⟨2, ![3104, 1024]⟩
abbrev S1024 : Shape := ⟨1, ![1024]⟩
abbrev S1024x512 : Shape := ⟨2, ![1024, 512]⟩
abbrev S512 : Shape := ⟨1, ![512]⟩
abbrev S3072x288 : Shape := ⟨2, ![3072, 288]⟩
abbrev S3072x1024 : Shape := ⟨2, ![3072, 1024]⟩
abbrev S3072 : Shape := ⟨1, ![3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192x256 : S_.BroadcastsInDim S8192x256 (![] : Fin 0 → Fin S8192x256.rank)
  reducesTo_S8192x256_S_d0_1 : S8192x256.ReducesTo [0, 1] S_
  bcast_S_S3104x1024 : S_.BroadcastsInDim S3104x1024 (![] : Fin 0 → Fin S3104x1024.rank)
  reducesTo_S3104x1024_S_d0_1 : S3104x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S3072x288 : S_.BroadcastsInDim S3072x288 (![] : Fin 0 → Fin S3072x288.rank)
  reducesTo_S3072x288_S_d0_1 : S3072x288.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part3 {F : FTy → Type} [FloatOps F] (main_arg11 : FVec F S3072 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S3072 .f32 := Host.absf main_arg11
  let main_cst_20 : FVec F S_ .f32 := constant S_ .f32 0x7F800000#32
  let main_v55 : FVec F S3072 .f32 := broadcastInDim S3072 ![] bcast_S_S3072 main_cst_20
  let main_v56 : IVec S3072 1 := cmpf .olt main_v54 main_v55
  let main_c_21 : IVec S_ 1 := constantI S_ 1 1#1
  let main_v57 : IVec S_ 1 := (fun x v => Host.reduce IntOp.andi x v reducesTo_S3072_S_d0 h_S_) main_v56 main_c_21
  let main_v58 : IVec S_ 1 := andi main_v53 main_v57
  main_v58

def fn_part2 {F : FTy → Type} [FloatOps F] (main_arg7 : FVec F S512 .f32) (main_arg8 : FVec F S3072x288 .f32) (main_arg9 : FVec F S3072x1024 .f32) (main_arg10 : FVec F S3072 .f32) (main_arg11 : FVec F S3072 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S3072x288 .f32 := Host.absf main_arg8
  let main_cst_14 : FVec F S_ .f32 := constant S_ .f32 0x7F800000#32
  let main_v40 : FVec F S3072x288 .f32 := broadcastInDim S3072x288 ![] bcast_S_S3072x288 main_cst_14
  let main_v41 : IVec S3072x288 1 := cmpf .olt main_v39 main_v40
  let main_c_15 : IVec S_ 1 := constantI S_ 1 1#1
  let main_v42 : IVec S_ 1 := (fun x v => Host.reduce IntOp.andi x v reducesTo_S3072x288_S_d0_1 h_S_) main_v41 main_c_15
  let main_v43 : IVec S_ 1 := andi main_v38 main_v42
  let main_v44 : FVec F S3072x1024 .f32 := Host.absf main_arg9
  let main_cst_16 : FVec F S_ .f32 := constant S_ .f32 0x7F800000#32
  let main_v45 : FVec F S3072x1024 .f32 := broadcastInDim S3072x1024 ![] bcast_S_S3072x1024 main_cst_16
  let main_v46 : IVec S3072x1024 1 := cmpf .olt main_v44 main_v45
  let main_c_17 : IVec S_ 1 := constantI S_ 1 1#1
  let main_v47 : IVec S_ 1 := (fun x v => Host.reduce IntOp.andi x v reducesTo_S3072x1024_S_d0_1 h_S_) main_v46 main_c_17
  let main_v48 : IVec S_ 1 := andi main_v43 main_v47
  let main_v49 : FVec F S3072 .f32 := Host.absf main_arg10
  let main_cst_18 : FVec F S_ .f32 := constant S_ .f32 0x7F800000#32
  let main_v50 : FVec F S3072 .f32 := broadcastInDim S3072 ![] bcast_S_S3072 main_cst_18
  fn_part3 (F := F) main_arg11 main_v48 main_v49 main_v50

def fn_part1 {F : FTy → Type} [FloatOps F] (main_arg4 : FVec F S3104x1024 .f32) (main_arg5 : FVec F S1024 .f32) (main_arg6 : FVec F S1024x512 .f32) (main_arg7 : FVec F S512 .f32) (main_arg8 : FVec F S3072x288 .f32) (main_arg9 : FVec F S3072x1024 .f32) (main_arg10 : FVec F S3072 .f32) (main_arg11 : FVec F S3072 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S3104x1024 .f32 := Host.absf main_arg4
  let main_cst_6 : FVec F S_ .f32 := constant S_ .f32 0x7F800000#32
  let main_v20 : FVec F S3104x1024 .f32 := broadcastInDim S3104x1024 ![] bcast_S_S3104x1024 main_cst_6
  let main_v21 : IVec S3104x1024 1 := cmpf .olt main_v19 main_v20
  let main_c_7 : IVec S_ 1 := constantI S_ 1 1#1
  let main_v22 : IVec S_ 1 := (fun x v => Host.reduce IntOp.andi x v reducesTo_S3104x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x1024 .f32) (main_arg1 : FVec F S8192x32 .f32) (main_arg2 : FVec F S8192x2048 .f32) (main_arg3 : FVec F S8192x256 .f32) (main_arg4 : FVec F S3104x1024 .f32) (main_arg5 : FVec F S1024 .f32) (main_arg6 : FVec F S1024x512 .f32) (main_arg7 : FVec F S512 .f32) (main_arg8 : FVec F S3072x288 .f32) (main_arg9 : FVec F S3072x1024 .f32) (main_arg10 : FVec F S3072 .f32) (main_arg11 : FVec F S3072 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_arg6 main_arg7 main_arg8 main_arg9 main_arg10 main_arg11 main_v13 main_v16
-- ==== Kernel.lean ====
abbrev S8192x1024 : Shape := ⟨2, ![8192, 1024]⟩
abbrev S8192x32 : Shape := ⟨2, ![8192, 32]⟩
abbrev S8192x2048 : Shape := ⟨2, ![8192, 2048]⟩
abbrev S8192x256 : Shape := ⟨2, ![8192, 256]⟩
abbrev S3104x1024 : Shape := ⟨2, ![3104, 1024]⟩
abbrev S1024 : Shape := ⟨1, ![1024]⟩
abbrev S1024x512 : Shape := ⟨2, ![1024, 512]⟩
abbrev S512 : Shape := ⟨1, ![512]⟩
abbrev S3072x288 : Shape := ⟨2, ![3072, 288]⟩
abbrev S3072x1024 : Shape := ⟨2, ![3072, 1024]⟩
abbrev S3072 : Shape := ⟨1, ![3072]⟩
abbrev S1024x1024 : Shape := ⟨2, ![1024, 1024]⟩
abbrev S32x1024 : Shape := ⟨2, ![32, 1024]⟩
abbrev S2048x1024 : Shape := ⟨2, ![2048, 1024]⟩
abbrev S288x3072 : Shape := ⟨2, ![288, 3072]⟩
abbrev S256x3072 : Shape := ⟨2, ![256, 3072]⟩
abbrev S32x3072 : Shape := ⟨2, ![32, 3072]⟩
abbrev S1024x3072 : Shape := ⟨2, ![1024, 3072]⟩
abbrev S1x1024 : Shape := ⟨2, ![1, 1024]⟩
abbrev S1x512 : Shape := ⟨2, ![1, 512]⟩
abbrev S1x3072 : Shape := ⟨2, ![1, 3072]⟩
abbrev S128x1024 : Shape := ⟨2, ![128, 1024]⟩
abbrev S128x32 : Shape := ⟨2, ![128, 32]⟩
abbrev S128x2048 : Shape := ⟨2, ![128, 2048]⟩
abbrev S128x256 : Shape := ⟨2, ![128, 256]⟩
abbrev S128x512 : Shape := ⟨2, ![128, 512]⟩
abbrev S128x3072 : Shape := ⟨2, ![128, 3072]⟩

abbrev nBuf : Space → Nat
  | .hbm => 34
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8192x2048, .f32⟩
  | .hbm, ⟨3, _⟩ => ⟨S8192x256, .f32⟩
  | .hbm, ⟨4, _⟩ => ⟨S3104x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S3072x288, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S1024x1024, .f32⟩
  | .hbm, ⟨13, _⟩ => ⟨S1024x1024, .bf16⟩
  | .hbm, ⟨14, _⟩ => ⟨S32x1024, .f32⟩
  | .hbm, ⟨15, _⟩ => ⟨S32x1024, .bf16⟩
  | .hbm, ⟨16, _⟩ => ⟨S2048x1024, .f32⟩
  | .hbm, ⟨17, _⟩ => ⟨S2048x1024, .bf16⟩
  | .hbm, ⟨18, _⟩ => ⟨S1024x512, .bf16⟩
  | .hbm, ⟨19, _⟩ => ⟨S288x3072, .f32⟩
  | .hbm, ⟨20, _⟩ => ⟨S256x3072, .f32⟩
  | .hbm, ⟨21, _⟩ => ⟨S256x3072, .bf16⟩
  | .hbm, ⟨22, _⟩ => ⟨S32x3072, .f32⟩
  | .hbm, ⟨23, _⟩ => ⟨S32x3072, .bf16⟩
  | .hbm, ⟨24, _⟩ => ⟨S1024x3072, .f32⟩
  | .hbm, ⟨25, _⟩ => ⟨S1024x3072, .bf16⟩
  | .hbm, ⟨26, _⟩ => ⟨S1x1024, .f32⟩
  | .hbm, ⟨27, _⟩ => ⟨S1x512, .f32⟩
  | .hbm, ⟨28, _⟩ => ⟨S1x3072, .f32⟩
  | .hbm, ⟨29, _⟩ => ⟨S1x3072, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x32, .f32⟩
  | .local _ .vmem, ⟨3, _⟩ => ⟨S128x32, .f32⟩
  | .local _ .vmem, ⟨4, _⟩ => ⟨S128x2048, .f32⟩
  | .local _ .vmem, ⟨5, _⟩ => ⟨S128x2048, .f32⟩
  | .local _ .vmem, ⟨6, _⟩ => ⟨S128x256, .f32⟩
  | .local _ .vmem, ⟨7, _⟩ => ⟨S128x256, .f32⟩
  | .local _ .vmem, ⟨8, _⟩ => ⟨S1024x1024, .bf16⟩
  | .local _ .vmem, ⟨9, _⟩ => ⟨S32x1024, .bf16⟩
  | .local _ .vmem, ⟨10, _⟩ => ⟨S2048x1024, .bf16⟩
  | .local _ .vmem, ⟨11, _⟩ => ⟨S1x1024, .f32⟩
  | .local _ .vmem, ⟨12, _⟩ => ⟨S1024x512, .bf16⟩
  | .local _ .vmem, ⟨13, _⟩ => ⟨S1x512, .f32⟩
  | .local _ .vmem, ⟨14, _⟩ => ⟨S256x3072, .bf16⟩
  | .local _ .vmem, ⟨15, _⟩ => ⟨S32x3072, .bf16⟩
  | .local _ .vmem, ⟨16, _⟩ => ⟨S1024x3072, .bf16⟩
  | .local _ .vmem, ⟨17, _⟩ => ⟨S1x3072, .f32⟩
  | .local _ .vmem, ⟨18, _⟩ => ⟨S1x3072, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x1024, .f32⟩
  | .local _ .vmem, ⟨26, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S3104x1024_S1024x1024_0_0 : S3104x1024.Slices ![0, 0] S1024x1024
  bitsLt_bf16_f32 : FTy.bits .bf16 < FTy.bits .f32
  slices_S3104x1024_S32x1024_1024_0 : S3104x1024.Slices ![1024, 0] S32x1024
  slices_S3104x1024_S2048x1024_1056_0 : S3104x1024.Slices ![1056, 0] S2048x1024
  transposes_S3072x288_S288x3072_1_0 : S3072x288.Transposes [1, 0] S288x3072
  slices_S288x3072_S256x3072_0_0 : S288x3072.Slices ![0, 0] S256x3072
  slices_S288x3072_S32x3072_256_0 : S288x3072.Slices ![256, 0] S32x3072
  transposes_S3072x1024_S1024x3072_1_0 : S3072x1024.Transposes [1, 0] S1024x3072
  shapeCasts_S1024_S1x1024 : S1024.ShapeCasts S1x1024
  shapeCasts_S512_S1x512 : S512.ShapeCasts S1x512
  shapeCasts_S3072_S1x3072 : S3072.ShapeCasts S1x3072
  inb_S128x1024_S128x1024_0_0 : ∀ a, (![0, 0] : Fin 2 → Nat) a + S128x1024.size a ≤ S128x1024.size a
  h_S128x1024 : 0 < S128x1024.numel
  inb_S128x32_S128x32_0_0 : ∀ a, (![0, 0] : Fin 2 → Nat) a + S128x32.size a ≤ S128x32.size a
  h_S128x32 : 0 < S128x32.numel
  inb_S128x2048_S128x2048_0_0 : ∀ a, (![0, 0] : Fin 2 → Nat) a + S128x2048.size a ≤ S128x2048.size a
  h_S128x2048 : 0 < S128x2048.numel
  inb_S128x256_S128x256_0_0 : ∀ a, (![0, 0] : Fin 2 → Nat) a + S128x256.size a ≤ S128x256.size a
  h_S128x256 : 0 < S128x256.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  slices_S128x512_o0_0_S128x256 : S128x512.Slices ![0, 0] S128x256
  slices_S128x512_o0_256_S128x256 : S128x512.Slices ![0, 256] S128x256
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S32x3072_S32x3072_0_0 : ∀ a, (![0, 0] : Fin 2 → Nat) a + S32x3072.size a ≤ S32x3072.size a
  h_S32x3072 : 0 < S32x3072.numel
  shapeCasts_S32x3072_S32x3072 : S32x3072.ShapeCasts S32x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S128x3072 : S1x3072.Broadcasts S128x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  dot_S128x1024_S1024x1024_S128x1024_1_0_0_1_n_n_wf : DotDims.WF S128x1024 S1024x1024 S128x1024 [1] [0] [0] [1] [] []
  dot_S128x32_S32x1024_S128x1024_1_0_0_1_n_n_wf : DotDims.WF S128x32 S32x1024 S128x1024 [1] [0] [0] [1] [] []
  dot_S128x2048_S2048x1024_S128x1024_1_0_0_1_n_n_wf : DotDims.WF S128x2048 S2048x1024 S128x1024 [1] [0] [0] [1] [] []
  dot_S128x1024_S1024x512_S128x512_1_0_0_1_n_n_wf : DotDims.WF S128x1024 S1024x512 S128x512 [1] [0] [0] [1] [] []
  dot_S128x256_S256x3072_S128x3072_1_0_0_1_n_n_wf : DotDims.WF S128x256 S256x3072 S128x3072 [1] [0] [0] [1] [] []
  dot_S128x32_S32x3072_S128x3072_1_0_0_1_n_n_wf : DotDims.WF S128x32 S32x3072 S128x3072 [1] [0] [0] [1] [] []
  dot_S128x1024_S1024x3072_S128x3072_1_0_0_1_n_n_wf : DotDims.WF S128x1024 S1024x3072 S128x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S8192x32.size a
  hwx0_1 : ∀ i : grid0.Coords, EltTy.bits .f32 = 32 ∨ (Rect.block (s := S8192x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S8192x2048.size a
  hwx0_2 : ∀ i : grid0.Coords, EltTy.bits .f32 = 32 ∨ (Rect.block (s := S8192x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S8192x256.size a
  hwx0_3 : ∀ i : grid0.Coords, EltTy.bits .f32 = 32 ∨ (Rect.block (s := S8192x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .bf16 = 32 ∨ (Rect.block (s := S32x1024) S32x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S2048x1024.size a
  hwx0_6 : ∀ i : grid0.Coords, EltTy.bits .bf16 = 32 ∨ (Rect.block (s := S2048x1024) S2048x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .bf16 = 32 ∨ (Rect.block (s := S1024x512) S1024x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x3072.size a ≤ S256x3072.size a
  hwx0_10 : ∀ i : grid0.Coords, EltTy.bits .bf16 = 32 ∨ (Rect.block (s := S256x3072) S256x3072.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x3072.size a ≤ S32x3072.size a
  hwx0_11 : ∀ i : grid0.Coords, EltTy.bits .bf16 = 32 ∨ (Rect.block (s := S32x3072) S32x3072.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x3072.size a ≤ S1024x3072.size a
  hwx0_12 : ∀ i : grid0.Coords, EltTy.bits .bf16 = 32 ∨ (Rect.block (s := S1024x3072) S1024x3072.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x3072.size a ≤ S1x3072.size a
  hwx0_13 : ∀ i : grid0.Coords, EltTy.bits .f32 = 32 ∨ (Rect.block (s := S1x3072) S1x3072.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x3072.size a ≤ S1x3072.size a
  hwx0_14 : ∀ i : grid0.Coords, EltTy.bits .f32 = 32 ∨ (Rect.block (s := S1x3072) S1x3072.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x256.size a ≤ S8192x256.size a
  hwx0_15 : ∀ i : grid0.Coords, EltTy.bits .f32 = 32 ∨ (Rect.block (s := S8192x256) S128x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x256.size a ≤ S8192x256.size a
  hwx0_16 : ∀ i : grid0.Coords, EltTy.bits .f32 = 32 ∨ (Rect.block (s := S8192x256) S128x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S8192x256.size a
  hwx0_17 : ∀ i : grid0.Coords, EltTy.bits .f32 = 32 ∨ (Rect.block (s := S8192x256) S128x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S128x1024.size a ≤ S8192x1024.size a
  hwx0_18 : ∀ i : grid0.Coords, EltTy.bits .f32 = 32 ∨ (Rect.block (s := S8192x1024) S128x1024.size (cc0_transform_18 i) (hinb0_18 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x32_S32x1024_S128x1024_1_0_0_1_n_n : DotDims S128x32 S32x1024 S128x1024 where
  lhsContracting := [1]
  rhsContracting := [0]
  lhsNonContracting := [0]
  rhsNonContracting := [1]
  lhsBatch := []
  rhsBatch := []
  wf := dot_S128x32_S32x1024_S128x1024_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x256_S256x3072_S128x3072_1_0_0_1_n_n : DotDims S128x256 S256x3072 S128x3072 where
  lhsContracting := [1]
  rhsContracting := [0]
  lhsNonContracting := [0]
  rhsNonContracting := [1]
  lhsBatch := []
  rhsBatch := []
  wf := dot_S128x256_S256x3072_S128x3072_1_0_0_1_n_n_wf
def dot_S128x32_S32x3072_S128x3072_1_0_0_1_n_n : DotDims S128x32 S32x3072 S128x3072 where
  lhsContracting := [1]
  rhsContracting := [0]
  lhsNonContracting := [0]
  rhsNonContracting := [1]
  lhsBatch := []
  rhsBatch := []
  wf := dot_S128x32_S32x3072_S128x3072_1_0_0_1_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S256x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S32x3072.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1024x3072.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x3072.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x3072.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v18_0) S128x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18_1) S128x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v18_2) S128x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v18_3) S128x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x32 : Shape := ⟨2, ![8192, 32]⟩
abbrev S8192x2048 : Shape := ⟨2, ![8192, 2048]⟩
abbrev S8192x256 : Shape := ⟨2, ![8192, 256]⟩
abbrev S3104x1024 : Shape := ⟨2, ![3104, 1024]⟩
abbrev S1024 : Shape := ⟨1, ![1024]⟩
abbrev S1024x512 : Shape := ⟨2, ![1024, 512]⟩
abbrev S512 : Shape := ⟨1, ![512]⟩
abbrev S3072x288 : Shape := ⟨2, ![3072, 288]⟩
abbrev S3072x1024 : Shape := ⟨2, ![3072, 1024]⟩
abbrev S3072 : Shape := ⟨1, ![3072]⟩
abbrev S8192x3104 : Shape := ⟨2, ![8192, 3104]⟩
abbrev S1x1024 : Shape := ⟨2, ![1, 1024]⟩
abbrev S_ : Shape := ⟨0, ![]⟩
abbrev S8192x512 : Shape := ⟨2, ![8192, 512]⟩
abbrev S1x512 : Shape := ⟨2, ![1, 512]⟩
abbrev S8192x288 : Shape := ⟨2, ![8192, 288]⟩
abbrev S288x3072 : Shape := ⟨2, ![288, 3072]⟩
abbrev S8192x3072 : Shape := ⟨2, ![8192, 3072]⟩
abbrev S1x3072 : Shape := ⟨2, ![1, 3072]⟩
abbrev S1024x3072 : Shape := ⟨2, ![1024, 3072]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8192x2048, .f32⟩
  | .hbm, ⟨3, _⟩ => ⟨S8192x256, .f32⟩
  | .hbm, ⟨4, _⟩ => ⟨S3104x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S3072x288, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S8192x3104, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x288, .f32⟩
  | .hbm, ⟨30, _⟩ => ⟨S288x3072, .f32⟩
  | .hbm, ⟨31, _⟩ => ⟨S8192x3072, .f32⟩
  | .hbm, ⟨32, _⟩ => ⟨S1x3072, .f32⟩
  | .hbm, ⟨33, _⟩ => ⟨S8192x3072, .f32⟩
  | .hbm, ⟨34, _⟩ => ⟨S8192x3072, .f32⟩
  | .hbm, ⟨35, _⟩ => ⟨S1024x3072, .f32⟩
  | .hbm, ⟨36, _⟩ => ⟨S8192x3072, .f32⟩
  | .hbm, ⟨37, _⟩ => ⟨S1x3072, .f32⟩
  | .hbm, ⟨38, _⟩ => ⟨S8192x3072, .f32⟩
  | .hbm, ⟨39, _⟩ => ⟨S8192x3072, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_cst_0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_1 : Ref sig .tc := ⟨.hbm, 58, rfl⟩
abbrev main_v42 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  concatenates_S8192x1024_S8192x32_S8192x2048_S8192x3104_d1 : Shape.Concatenates [S8192x1024, S8192x32, S8192x2048] S8192x3104 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  slices_S8192x512_S8192x256_0_0 : S8192x512.Slices ![0, 0] S8192x256
  slices_S8192x512_S8192x256_0_256 : S8192x512.Slices ![0, 256] S8192x256
  concatenates_S8192x256_S8192x32_S8192x288_d1 : Shape.Concatenates [S8192x256, S8192x32] S8192x288 1
  transposes_S3072x288_S288x3072_1_0 : S3072x288.Transposes [1, 0] S288x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  transposes_S3072x1024_S1024x3072_1_0 : S3072x1024.Transposes [1, 0] S1024x3072
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  dot_S8192x3104_S3104x1024_S8192x1024_1_0_0_1_n_n_wf : DotDims.WF S8192x3104 S3104x1024 S8192x1024 [1] [0] [0] [1] [] []
  dot_S8192x1024_S1024x512_S8192x512_1_0_0_1_n_n_wf : DotDims.WF S8192x1024 S1024x512 S8192x512 [1] [0] [0] [1] [] []
  dot_S8192x288_S288x3072_S8192x3072_1_0_0_1_n_n_wf : DotDims.WF S8192x288 S288x3072 S8192x3072 [1] [0] [0] [1] [] []
  dot_S8192x1024_S1024x3072_S8192x3072_1_0_0_1_n_n_wf : DotDims.WF S8192x1024 S1024x3072 S8192x3072 [1] [0] [0] [1] [] []

variable [Facts₀]

def dot_S8192x3104_S3104x1024_S8192x1024_1_0_0_1_n_n : DotDims S8192x3104 S3104x1024 S8192x1024 where
  lhsContracting := [1]
  rhsContracting := [0]
  lhsNonContracting := [0]
  rhsNonContracting := [1]
  lhsBatch := []
  rhsBatch := []
  wf := dot_S8192x3104_S3104x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x288_S288x3072_S8192x3072_1_0_0_1_n_n : DotDims S8192x288 S288x3072 S8192x3072 where
  lhsContracting := [1]
  rhsContracting := [0]
  lhsNonContracting := [0]
  rhsNonContracting := [1]
  lhsBatch := []
  rhsBatch := []
  wf := dot_S8192x288_S288x3072_S8192x3072_1_0_0_1_n_n_wf
def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf

class Facts : Prop extends Facts₀ where

variable [Facts]
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.RowStep.lean ====
/-
  One batch row of the recurrent state-space step, on the extended reals.

  For one row the step takes the previous state `s` (1024 entries), the previous action `a` (32), the
  observation `o` (2048) and the noise `e` (256), and computes

    hidden j  = max (Σₖ s k · A1 k j + Σₖ a k · A2 k j + Σₖ o k · A3 k j + b1 j) 0        (1024 entries)
    out j     = Σₖ hidden k · W2 k j + b2 j                                              (512 entries)
    mean j    = out j,   var j = out (j + 256)                                           (256 entries each)
    sample j  = mean j + √(var j) · e j
    gi j      = Σₖ sample k · Gs k j + Σₖ a k · Ga k j + bi j                             (3072 entries)
    gh j      = Σₖ s k · Gh k j + bh j                                                   (3072 entries)
    r j = σ (gi j + gh j),  z j = σ (gi (j+1024) + gh (j+1024)),  n j = tanh (gi (j+2048) + r j · gh (j+2048))
    belief j  = (1 − z j) · n j + z j · s j                                              (1024 entries)

  where σ x = 1 / (1 + e⁻ˣ). The three blocks A1, A2, A3 are the rows of the first layer's weight matrix that meet
  the state, the action and the observation; Gs, Ga the rows of the gated unit's (transposed) input weights that
  meet the sample and the action. Also here: a sum over a range split into consecutive runs is the sum of the
  runs' sums, in any commutative monoid — the law by which a product with a concatenated row is the sum of the
  products with its parts.
-/
import Idealize.ShloMosaic.PureOps.Ideal
import Idealize.ShloMosaic.Lib.IdealHost
import Idealize.ShloMosaic.Lib.ValueIdx
import Mathlib.Algebra.BigOperators.Fin
import proofs.«153712_j6665789243871_1_alg».proof.Proof.LibMatrixReads

noncomputable section

open scoped BigOperators

namespace Cert.BeliefStep

open Idealize.ShloMosaic Idealize.ShloMosaic.ValueIdx Idealize.ShloMosaic.MatrixReads

/-- One batch row of the inputs. -/
structure Row where
  s : Fin 1024 → EReal
  a : Fin 32 → EReal
  o : Fin 2048 → EReal
  e : Fin 256 → EReal

/-- The weights, the first layer's matrix and the gated unit's input matrix cut into the row blocks that meet
    each part of their concatenated input. -/
structure Weights where
  A1 : Fin 1024 → Fin 1024 → EReal
  A2 : Fin 32 → Fin 1024 → EReal
  A3 : Fin 2048 → Fin 1024 → EReal
  b1 : Fin 1024 → EReal
  W2 : Fin 1024 → Fin 512 → EReal
  b2 : Fin 512 → EReal
  Gs : Fin 256 → Fin 3072 → EReal
  Ga : Fin 32 → Fin 3072 → EReal
  Gh : Fin 1024 → Fin 3072 → EReal
  bi : Fin 3072 → EReal
  bh : Fin 3072 → EReal

/-- The hidden layer: the affine map of the three parts, clipped below at zero. -/
def hidden (x : Row) (w : Weights) (j : Fin 1024) : EReal :=
  max ((((∑ k, x.s k * w.A1 k j) + (∑ k, x.a k * w.A2 k j)) + (∑ k, x.o k * w.A3 k j)) + w.b1 j)
    (Ideal.ofBits .f32 0x00000000#32)

/-- The second layer's 512 outputs: the mean in the first half, the variance in the second. -/
def out (x : Row) (w : Weights) (j : Fin 512) : EReal :=
  (∑ k, hidden x w k * w.W2 k j) + w.b2 j

/-- The mean of the latent. -/
def mean (x : Row) (w : Weights) (j : Fin 256) : EReal := out x w ⟨j.val, by omega⟩

/-- Its variance (the diagonal of the covariance). -/
def var (x : Row) (w : Weights) (j : Fin 256) : EReal := out x w ⟨j.val + 256, by omega⟩

/-- The reparameterized sample: mean plus standard deviation times the noise. -/
def sample (x : Row) (w : Weights) (j : Fin 256) : EReal :=
  mean x w j + Ideal.sqrt (var x w j) * x.e j

/-- The gated unit's input pre-activations. -/
def gi (x : Row) (w : Weights) (j : Fin 3072) : EReal :=
  ((∑ k, sample x w k * w.Gs k j) + (∑ k, x.a k * w.Ga k j)) + w.bi j

/-- The gated unit's state pre-activations. -/
def gh (x : Row) (w : Weights) (j : Fin 3072) : EReal :=
  (∑ k, x.s k * w.Gh k j) + w.bh j

/-- The reset gate. -/
def rgate (x : Row) (w : Weights) (j : Fin 1024) : EReal :=
  Ideal.logistic (gi x w ⟨j.val, by omega⟩ + gh x w ⟨j.val, by omega⟩)

/-- The update gate. -/
def zgate (x : Row) (w : Weights) (j : Fin 1024) : EReal :=
  Ideal.logistic (gi x w ⟨j.val + 1024, by omega⟩ + gh x w ⟨j.val + 1024, by omega⟩)

/-- The candidate state. -/
def cand (x : Row) (w : Weights) (j : Fin 1024) : EReal :=
  Ideal.tanh (gi x w ⟨j.val + 2048, by omega⟩ + rgate x w j * gh x w ⟨j.val + 2048, by omega⟩)

/-- The new belief: the update gate's mix of the candidate and the previous state. -/
def belief (x : Row) (w : Weights) (j : Fin 1024) : EReal :=
  (Ideal.ofBits .f32 0x3F800000#32 - zgate x w j) * cand x w j + zgate x w j * x.s j

/-! ## The whole arrays -/

/-- A rank-2 array of extended reals. -/
abbrev Arr2 (n0 n1 : Nat) : Type := (⟨2, ![n0, n1]⟩ : Shape).Idx → EReal
/-- A rank-1 array of extended reals. -/
abbrev Arr1 (n : Nat) : Type := (⟨1, ![n]⟩ : Shape).Idx → EReal

/-- Row `b` of the four batched inputs. -/
def rowOf (ps : Arr2 8192 1024) (pa : Arr2 8192 32) (ob : Arr2 8192 2048) (ep : Arr2 8192 256) (b : Fin 8192) : Row where
  s k := ps (ix2 b k)
  a k := pa (ix2 b k)
  o k := ob (ix2 b k)
  e k := ep (ix2 b k)

/-- The weights as the arguments give them: the first layer's matrix is `[3104, 1024]`, its rows 0–1023 meeting
    the state, 1024–1055 the action, 1056–3103 the observation; the gated unit's matrices are stored output-major
    (`[3072, 288]` and `[3072, 1024]`), input columns 0–255 meeting the sample and 256–287 the action. -/
def weightsOf (W1 : Arr2 3104 1024) (b1 : Arr1 1024) (W2 : Arr2 1024 512) (b2 : Arr1 512)
    (Wih : Arr2 3072 288) (Whh : Arr2 3072 1024) (bih bhh : Arr1 3072) : Weights where
  A1 k j := W1 (ix2 (⟨k.val, by omega⟩ : Fin 3104) j)
  A2 k j := W1 (ix2 (⟨k.val + 1024, by omega⟩ : Fin 3104) j)
  A3 k j := W1 (ix2 (⟨k.val + 1056, by omega⟩ : Fin 3104) j)
  b1 j := b1 (ix1 j)
  W2 k j := W2 (ix2 k j)
  b2 j := b2 (ix1 j)
  Gs k j := Wih (ix2 j (⟨k.val, by omega⟩ : Fin 288))
  Ga k j := Wih (ix2 j (⟨k.val + 256, by omega⟩ : Fin 288))
  Gh k j := Whh (ix2 j k)
  bi j := bih (ix1 j)
  bh j := bhh (ix1 j)

/-! ## A sum over consecutive runs -/

variable {M : Type} [AddCommMonoid M]

/-- The first layer's contraction index: 3104 = 1024 + 32 + 2048. -/
theorem sum_3104 (f : Fin 3104 → M) :
    ∑ k, f k = ((∑ k : Fin 1024, f ⟨k.val, by omega⟩) + ∑ k : Fin 32, f ⟨k.val + 1024, by omega⟩)
      + ∑ k : Fin 2048, f ⟨k.val + 1056, by omega⟩ := by
  have h1 := sum_two_runs (M := M) 1056 2048 f
  have h2 := sum_two_runs (M := M) 1024 32 (fun k : Fin (1024 + 32) => f ⟨k.val, by omega⟩)
  rw [h1]
  congr 1

/-- The gated unit's contraction index: 288 = 256 + 32. -/
theorem sum_288 (f : Fin 288 → M) :
    ∑ k, f k = (∑ k : Fin 256, f ⟨k.val, by omega⟩) + ∑ k : Fin 32, f ⟨k.val + 256, by omega⟩ :=
  sum_two_runs (M := M) 256 32 f

end Cert.BeliefStep

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.KernelRow.lean ====
/-
  The kernel's block results, read at a row and a column, are the row step of that block row.

  The body works on a block of 128 batch rows. Each of its four stored values, read at row `p` and column `j`, is
  the corresponding entry of the row step (`Cert.BeliefStep`) applied to row `p` of the four input blocks and to
  the weights as the body loads them: the three row blocks of the first layer's matrix, the second layer's matrix,
  the gated unit's two transposed input blocks and its state matrix, and the four bias rows. The matrix products
  are plain products into zero accumulators, so each is a sum over the contraction index; the biases are single
  rows broadcast down the block; the halves and thirds are column slices.
-/
import proofs.«153712_j6665789243871_1_alg».proof.Proof.Gen.KernelIdeal.Skeleton
import proofs.«153712_j6665789243871_1_alg».proof.Proof.RowStep
import proofs.«153712_j6665789243871_1_alg».proof.Proof.LibPlainDot
import proofs.«153712_j6665789243871_1_alg».proof.Proof.LibMatrixReads
import Idealize.ShloMosaic.Lib.Pipeline.Value
import Idealize.ShloMosaic.Lib.ValueIdx

noncomputable section

open scoped BigOperators

namespace Cert.KernelIdeal.RowValue

open Cert.KernelIdeal Cert.KernelIdeal.Gen Idealize.ShloMosaic Idealize.ShloMosaic.ValueIdx Cert.BeliefStep
open Idealize.ShloMosaic.MatrixReads

/-- The logistic function of a vector, at an index. -/
theorem logistic_at {s : Shape} (v : FVec Ideal s .f32) (i : s.Idx) : logistic v i = Ideal.logistic (v i) := rfl
/-- The hyperbolic tangent of a vector, at an index. -/
theorem tanh_at {s : Shape} (v : FVec Ideal s .f32) (i : s.Idx) : tanh v i = Ideal.tanh (v i) := rfl

/-! ## The seven products -/

theorem dot_state_hidden (A : FVec Ideal S128x1024 .bf16) (B : FVec Ideal S1024x1024 .bf16) (p : Fin 128) (q : Fin 1024) :
    matmul dot_S128x1024_S1024x1024_S128x1024_1_0_0_1_n_n none A B (constant S128x1024 .f32 0x00000000#32) (ix2 p q)
      = ∑ t : Fin 1024, A (ix2 p t) * B (ix2 t q) :=
  PlainDot.matmul_zero_apply 128 1024 1024 none A B p q

theorem dot_action_hidden (A : FVec Ideal S128x32 .bf16) (B : FVec Ideal S32x1024 .bf16) (p : Fin 128) (q : Fin 1024) :
    matmul dot_S128x32_S32x1024_S128x1024_1_0_0_1_n_n none A B (constant S128x1024 .f32 0x00000000#32) (ix2 p q)
      = ∑ t : Fin 32, A (ix2 p t) * B (ix2 t q) :=
  PlainDot.matmul_zero_apply 128 32 1024 none A B p q

theorem dot_obs_hidden (A : FVec Ideal S128x2048 .bf16) (B : FVec Ideal S2048x1024 .bf16) (p : Fin 128) (q : Fin 1024) :
    matmul dot_S128x2048_S2048x1024_S128x1024_1_0_0_1_n_n none A B (constant S128x1024 .f32 0x00000000#32) (ix2 p q)
      = ∑ t : Fin 2048, A (ix2 p t) * B (ix2 t q) :=
  PlainDot.matmul_zero_apply 128 2048 1024 none A B p q

theorem dot_hidden_out (A : FVec Ideal S128x1024 .bf16) (B : FVec Ideal S1024x512 .bf16) (p : Fin 128) (q : Fin 512) :
    matmul dot_S128x1024_S1024x512_S128x512_1_0_0_1_n_n none A B (constant S128x512 .f32 0x00000000#32) (ix2 p q)
      = ∑ t : Fin 1024, A (ix2 p t) * B (ix2 t q) :=
  PlainDot.matmul_zero_apply 128 1024 512 none A B p q

theorem dot_sample_gates (A : FVec Ideal S128x256 .bf16) (B : FVec Ideal S256x3072 .bf16) (p : Fin 128) (q : Fin 3072) :
    matmul dot_S128x256_S256x3072_S128x3072_1_0_0_1_n_n none A B (constant S128x3072 .f32 0x00000000#32) (ix2 p q)
      = ∑ t : Fin 256, A (ix2 p t) * B (ix2 t q) :=
  PlainDot.matmul_zero_apply 128 256 3072 none A B p q

theorem dot_action_gates (A : FVec Ideal S128x32 .bf16) (B : FVec Ideal S32x3072 .bf16) (p : Fin 128) (q : Fin 3072) :
    matmul dot_S128x32_S32x3072_S128x3072_1_0_0_1_n_n none A B (constant S128x3072 .f32 0x00000000#32) (ix2 p q)
      = ∑ t : Fin 32, A (ix2 p t) * B (ix2 t q) :=
  PlainDot.matmul_zero_apply 128 32 3072 none A B p q

theorem dot_state_gates (A : FVec Ideal S128x1024 .bf16) (B : FVec Ideal S1024x3072 .bf16) (p : Fin 128) (q : Fin 3072) :
    matmul dot_S128x1024_S1024x3072_S128x3072_1_0_0_1_n_n none A B (constant S128x3072 .f32 0x00000000#32) (ix2 p q)
      = ∑ t : Fin 1024, A (ix2 p t) * B (ix2 t q) :=
  PlainDot.matmul_zero_apply 128 1024 3072 none A B p q

/-! ## The block's rows and the loaded weights -/

/-- Row `p` of the four input blocks. -/
def blockRow (x0 : Vec Ideal S128x1024 .f32) (x1 : Vec Ideal S128x32 .f32) (x2 : Vec Ideal S128x2048 .f32)
    (x3 : Vec Ideal S128x256 .f32) (p : Fin 128) : Row where
  s k := x0 (ix2 p k)
  a k := x1 (ix2 p k)
  o k := x2 (ix2 p k)
  e k := x3 (ix2 p k)

/-- The weights as the body loads them. -/
def blockWeights (w1s : Vec Ideal S1024x1024 .bf16) (w1a : Vec Ideal S32x1024 .bf16) (w1o : Vec Ideal S2048x1024 .bf16)
    (b1 : Vec Ideal S1x1024 .f32) (w2 : Vec Ideal S1024x512 .bf16) (b2 : Vec Ideal S1x512 .f32)
    (wihs : Vec Ideal S256x3072 .bf16) (wiha : Vec Ideal S32x3072 .bf16) (whh : Vec Ideal S1024x3072 .bf16)
    (bih bhh : Vec Ideal S1x3072 .f32) : Weights where
  A1 k j := w1s (ix2 k j)
  A2 k j := w1a (ix2 k j)
  A3 k j := w1o (ix2 k j)
  b1 j := b1 (ix2 (0 : Fin 1) j)
  W2 k j := w2 (ix2 k j)
  b2 j := b2 (ix2 (0 : Fin 1) j)
  Gs k j := wihs (ix2 k j)
  Ga k j := wiha (ix2 k j)
  Gh k j := whh (ix2 k j)
  bi j := bih (ix2 (0 : Fin 1) j)
  bh j := bhh (ix2 (0 : Fin 1) j)

section
variable (x0 : Vec Ideal S128x1024 .f32) (x1 : Vec Ideal S128x32 .f32) (x2 : Vec Ideal S128x2048 .f32)
  (x3 : Vec Ideal S128x256 .f32)
  (w1s : Vec Ideal S1024x1024 .bf16) (w1a : Vec Ideal S32x1024 .bf16) (w1o : Vec Ideal S2048x1024 .bf16)
  (b1 : Vec Ideal S1x1024 .f32) (w2 : Vec Ideal S1024x512 .bf16) (b2 : Vec Ideal S1x512 .f32)
  (wihs : Vec Ideal S256x3072 .bf16) (wiha : Vec Ideal S32x3072 .bf16) (whh : Vec Ideal S1024x3072 .bf16)
  (bih bhh : Vec Ideal S1x3072 .f32)

local notation "R" p => blockRow x0 x1 x2 x3 p
local notation "𝒲" => blockWeights w1s w1a w1o b1 w2 b2 wihs wiha whh bih bhh

/-- The second layer's output block at `(p, j)`. -/
theorem pay3_apply (p : Fin 128) (j : Fin 512) :
    k0_pay3 (F := Ideal) x0 x1 x2 w1s w1a w1o b1 w2 b2 (ix2 p j) = out (R p) 𝒲 j := by
  unfold k0_pay3 k0_pay1 k0_pay2
  simp only [shapeCast_self]
  rw [addf_apply, dot_hidden_out, rowBroadcast_apply]
  unfold out
  congr 1
  refine Finset.sum_congr rfl fun t _ => ?_
  congr 1
  rw [truncf_apply, maximumf_apply, addf_apply, addf_apply, addf_apply, dot_state_hidden, dot_action_hidden,
    dot_obs_hidden, rowBroadcast_apply, broadcast_apply]
  rfl

/-- The mean block at `(p, j)`: the left half of the second layer's output. -/
theorem pay4_apply (p : Fin 128) (j : Fin 256) :
    k0_pay4 (F := Ideal) x0 x1 x2 w1s w1a w1o b1 w2 b2 (ix2 p j) = mean (R p) 𝒲 j := by
  unfold k0_pay4
  refine (colSlice_apply 128 512 256 0 _ _ p j (by have := j.isLt; omega)).trans ?_
  exact pay3_apply x0 x1 x2 x3 w1s w1a w1o b1 w2 b2 wihs wiha whh bih bhh p _

/-- The variance block at `(p, j)`: the right half. -/
theorem pay5_apply (p : Fin 128) (j : Fin 256) :
    k0_pay5 (F := Ideal) x0 x1 x2 w1s w1a w1o b1 w2 b2 (ix2 p j) = var (R p) 𝒲 j := by
  unfold k0_pay5
  refine (colSlice_apply 128 512 256 256 _ _ p j (by have := j.isLt; omega)).trans ?_
  exact pay3_apply x0 x1 x2 x3 w1s w1a w1o b1 w2 b2 wihs wiha whh bih bhh p _

/-- The sample block at `(p, j)`. -/
theorem pay6_apply (p : Fin 128) (j : Fin 256) :
    k0_pay6 (F := Ideal) x3 (k0_pay4 x0 x1 x2 w1s w1a w1o b1 w2 b2) (k0_pay5 x0 x1 x2 w1s w1a w1o b1 w2 b2) (ix2 p j)
      = sample (R p) 𝒲 j := by
  unfold k0_pay6
  show k0_pay4 (F := Ideal) x0 x1 x2 w1s w1a w1o b1 w2 b2 (ix2 p j)
      + Ideal.sqrt (k0_pay5 (F := Ideal) x0 x1 x2 w1s w1a w1o b1 w2 b2 (ix2 p j)) * x3 (ix2 p j) = _
  rw [pay4_apply x0 x1 x2 x3 w1s w1a w1o b1 w2 b2 wihs wiha whh bih bhh,
    pay5_apply x0 x1 x2 x3 w1s w1a w1o b1 w2 b2 wihs wiha whh bih bhh]
  rfl

/-- The gated unit's input pre-activations over the block, at `(p, q)`, for any vector `S` that holds the sample. -/
theorem gi_apply (S : FVec Ideal S128x256 .f32) (p : Fin 128) (hS : ∀ k : Fin 256, S (ix2 p k) = sample (R p) 𝒲 k)
    (q : Fin 3072) :
    addf (F := Ideal) (addf (matmul (φ₁ := .bf16) (φ₂ := .bf16) dot_S128x256_S256x3072_S128x3072_1_0_0_1_n_n none
          (truncf .bf16 S bitsLt_bf16_f32) wihs (constant S128x3072 .f32 0x00000000#32))
        (matmul (φ₁ := .bf16) (φ₂ := .bf16) dot_S128x32_S32x3072_S128x3072_1_0_0_1_n_n none
          (truncf .bf16 (x1 : FVec Ideal S128x32 .f32) bitsLt_bf16_f32) wiha (constant S128x3072 .f32 0x00000000#32)))
      (broadcastTo S128x3072 (bih : FVec Ideal S1x3072 .f32) broadcasts_S1x3072_S128x3072) (ix2 p q) = gi (R p) 𝒲 q := by
  rw [addf_apply, addf_apply, dot_sample_gates, dot_action_gates, rowBroadcast_apply]
  unfold gi
  congr 2
  exact Finset.sum_congr rfl fun t _ => congrArg (· * wihs (ix2 t q)) (hS t)

/-- The state pre-activations over the block, at `(p, q)`. -/
theorem gh_apply (p : Fin 128) (q : Fin 3072) :
    addf (F := Ideal) (matmul (φ₁ := .bf16) (φ₂ := .bf16) dot_S128x1024_S1024x3072_S128x3072_1_0_0_1_n_n none
          (truncf .bf16 (x0 : FVec Ideal S128x1024 .f32) bitsLt_bf16_f32) whh (constant S128x3072 .f32 0x00000000#32))
      (broadcastTo S128x3072 (bhh : FVec Ideal S1x3072 .f32) broadcasts_S1x3072_S128x3072) (ix2 p q) = gh (R p) 𝒲 q := by
  rw [addf_apply, dot_state_gates, rowBroadcast_apply]
  rfl

/-- The belief block at `(p, j)`. -/
theorem pay7_apply (p : Fin 128) (j : Fin 1024) :
    k0_pay7 (F := Ideal) x0 x3 (k0_pay1 x0) (k0_pay2 x1) (k0_pay4 x0 x1 x2 w1s w1a w1o b1 w2 b2)
      (k0_pay5 x0 x1 x2 w1s w1a w1o b1 w2 b2) wihs wiha bih whh bhh (ix2 p j) = belief (R p) 𝒲 j := by
  have hj := j.isLt
  have hS : ∀ k : Fin 256, k0_pay6 (F := Ideal) x3 (k0_pay4 x0 x1 x2 w1s w1a w1o b1 w2 b2)
      (k0_pay5 x0 x1 x2 w1s w1a w1o b1 w2 b2) (ix2 p k) = sample (R p) 𝒲 k :=
    fun k => pay6_apply x0 x1 x2 x3 w1s w1a w1o b1 w2 b2 wihs wiha whh bih bhh p k
  have GI := fun q => gi_apply x0 x1 x2 x3 w1s w1a w1o b1 w2 b2 wihs wiha whh bih bhh _ p hS q
  have GH := fun q => gh_apply x0 x1 x2 x3 w1s w1a w1o b1 w2 b2 wihs wiha whh bih bhh p q
  unfold k0_pay7 k0_pay1 k0_pay2
  simp only [shapeCast_self]
  simp only [addf_apply, mulf_apply, subf_apply, broadcast_apply, logistic_at, tanh_at]
  rw [colSlice_apply 128 3072 1024 1024 _ _ p j (by omega), colSlice_apply 128 3072 1024 1024 _ _ p j (by omega),
    colSlice_apply 128 3072 1024 2048 _ _ p j (by omega), colSlice_apply 128 3072 1024 2048 _ _ p j (by omega),
    colSlice_apply 128 3072 1024 0 _ _ p j (by omega), colSlice_apply 128 3072 1024 0 _ _ p j (by omega)]
  simp only [GI, GH]
  rfl

end

end Cert.KernelIdeal.RowValue

end
-- ==== Proof.ArrayValue.lean ====
/-
  From blocks to arrays: after the run each output array is the row step of the corresponding batch row.

  The grid has 64 points; point `t` works on batch rows `128 t … 128 t + 127`. Its four activation blocks are
  those rows of the four batched inputs, and its weight blocks are whole arrays the host prepared before the call:
  row slices of the first layer's matrix, the transposed gated-unit matrices (and their column blocks), the biases
  as single rows. So what point `t` writes back, read at local row `p`, is the row step of batch row `128 t + p`
  at the weights as the arguments give them; the 64 blocks tile each output array.
-/
import proofs.«153712_j6665789243871_1_alg».proof.Proof.Gen.KernelIdeal.Value
import proofs.«153712_j6665789243871_1_alg».proof.Proof.RowStep
import proofs.«153712_j6665789243871_1_alg».proof.Proof.KernelRow
import proofs.«153712_j6665789243871_1_alg».proof.Proof.LibMatrixReads
import Idealize.ShloMosaic.Lib.Pipeline.Value
import Idealize.ShloMosaic.Lib.ValueIdx
import Idealize.ShloMosaic.Lib.StableHlo.Run

noncomputable section

open scoped BigOperators

namespace Cert.KernelIdeal.ArrayValue

open Cert.KernelIdeal Cert.KernelIdeal.Gen Cert.KernelIdeal.Value Cert.KernelIdeal.RowValue
open Idealize.ShloMosaic Idealize.ShloMosaic.TcCoe Idealize.SL.Sem
open Idealize.ShloMosaic.ValueIdx Cert.BeliefStep
open Idealize.ShloMosaic.Pipeline (Dat)
open Idealize.ShloMosaic.MatrixReads

variable (m : (ℓ : Loc nD τ sig) → Buf (Elt Ideal) ℓ) (ρ : Dev nD → PrngReg)

/-! ## The arguments, as arrays of extended reals -/

abbrev a0 (c : Dev nD) : Arr2 8192 1024 := m ((c : Thread nD τ).loc main_arg0)
abbrev a1 (c : Dev nD) : Arr2 8192 32 := m ((c : Thread nD τ).loc main_arg1)
abbrev a2 (c : Dev nD) : Arr2 8192 2048 := m ((c : Thread nD τ).loc main_arg2)
abbrev a3 (c : Dev nD) : Arr2 8192 256 := m ((c : Thread nD τ).loc main_arg3)
abbrev a4 (c : Dev nD) : Arr2 3104 1024 := m ((c : Thread nD τ).loc main_arg4)
abbrev a5 (c : Dev nD) : Arr1 1024 := m ((c : Thread nD τ).loc main_arg5)
abbrev a6 (c : Dev nD) : Arr2 1024 512 := m ((c : Thread nD τ).loc main_arg6)
abbrev a7 (c : Dev nD) : Arr1 512 := m ((c : Thread nD τ).loc main_arg7)
abbrev a8 (c : Dev nD) : Arr2 3072 288 := m ((c : Thread nD τ).loc main_arg8)
abbrev a9 (c : Dev nD) : Arr2 3072 1024 := m ((c : Thread nD τ).loc main_arg9)
abbrev a10 (c : Dev nD) : Arr1 3072 := m ((c : Thread nD τ).loc main_arg10)
abbrev a11 (c : Dev nD) : Arr1 3072 := m ((c : Thread nD τ).loc main_arg11)

/-- Batch row `r` of the arguments. -/
abbrev argRow (c : Dev nD) (r : Fin 8192) : Row := rowOf (a0 m c) (a1 m c) (a2 m c) (a3 m c) r
/-- The weights of the arguments. -/
abbrev argWeights (c : Dev nD) : Weights :=
  weightsOf (a4 m c) (a5 m c) (a6 m c) (a7 m c) (a8 m c) (a9 m c) (a10 m c) (a11 m c)

/-! ## What the host prepared: the staged weight arrays, entry by entry -/

/-- The staged state block of the first layer's matrix is rows 0–1023 of the argument. -/
theorem V_w1s (c : Dev nD) (k : Fin 1024) (j : Fin 1024) :
    V m c main_v1 (ix2 k j) = (argWeights m c).A1 k j := by
  have e : (V m c main_v1 : S1024x1024.Idx → EReal) = truncf (F := Ideal) .bf16 (extractStridedSlice S1024x1024 ![0, 0]
      (a4 m c) slices_S3104x1024_S1024x1024_0_0 : FVec Ideal S1024x1024 .f32) bitsLt_bf16_f32 := by
    dsimp only [Gen.V, Gen.hostOps0]; after_results
  rw [e, truncf_apply]
  exact slice2_apply 3104 1024 1024 1024 0 0 _ _ k j (by omega) (by omega)

/-- The staged action block is rows 1024–1055. -/
theorem V_w1a (c : Dev nD) (k : Fin 32) (j : Fin 1024) :
    V m c main_v3 (ix2 k j) = (argWeights m c).A2 k j := by
  have e : (V m c main_v3 : S32x1024.Idx → EReal) = truncf (F := Ideal) .bf16 (extractStridedSlice S32x1024 ![1024, 0]
      (a4 m c) slices_S3104x1024_S32x1024_1024_0 : FVec Ideal S32x1024 .f32) bitsLt_bf16_f32 := by
    dsimp only [Gen.V, Gen.hostOps0]; after_results
  rw [e, truncf_apply]
  exact slice2_apply 3104 1024 32 1024 1024 0 _ _ k j (by omega) (by omega)

/-- The staged observation block is rows 1056–3103. -/
theorem V_w1o (c : Dev nD) (k : Fin 2048) (j : Fin 1024) :
    V m c main_v5 (ix2 k j) = (argWeights m c).A3 k j := by
  have e : (V m c main_v5 : S2048x1024.Idx → EReal) = truncf (F := Ideal) .bf16 (extractStridedSlice S2048x1024 ![1056, 0]
      (a4 m c) slices_S3104x1024_S2048x1024_1056_0 : FVec Ideal S2048x1024 .f32) bitsLt_bf16_f32 := by
    dsimp only [Gen.V, Gen.hostOps0]; after_results
  rw [e, truncf_apply]
  exact slice2_apply 3104 1024 2048 1024 1056 0 _ _ k j (by omega) (by omega)

/-- The first layer's bias, staged as a single row. -/
theorem V_b1 (c : Dev nD) (j : Fin 1024) :
    V m c main_v14 (ix2 (0 : Fin 1) j) = (argWeights m c).b1 j := by
  have e : (V m c main_v14 : S1x1024.Idx → EReal) = shapeCast S1x1024 (a5 m c) shapeCasts_S1024_S1x1024 := by
    dsimp only [Gen.V, Gen.hostOps0]; after_results; rfl
  rw [e]
  exact rowOfVec_apply 1024 _ _ j

/-- The second layer's matrix is staged as given. -/
theorem V_w2 (c : Dev nD) (k : Fin 1024) (j : Fin 512) :
    V m c main_v6 (ix2 k j) = (argWeights m c).W2 k j := by
  have e : (V m c main_v6 : S1024x512.Idx → EReal) = truncf (F := Ideal) .bf16 (a6 m c : FVec Ideal S1024x512 .f32) bitsLt_bf16_f32 := by
    dsimp only [Gen.V, Gen.hostOps0]; after_results
  rw [e]
  rfl

/-- The second layer's bias, staged as a single row. -/
theorem V_b2 (c : Dev nD) (j : Fin 512) :
    V m c main_v15 (ix2 (0 : Fin 1) j) = (argWeights m c).b2 j := by
  have e : (V m c main_v15 : S1x512.Idx → EReal) = shapeCast S1x512 (a7 m c) shapeCasts_S512_S1x512 := by
    dsimp only [Gen.V, Gen.hostOps0]; after_results; rfl
  rw [e]
  exact rowOfVec_apply 512 _ _ j

/-- The staged sample block of the gated unit's input matrix: columns 0–255 of the argument, transposed. -/
theorem V_wihs (c : Dev nD) (k : Fin 256) (j : Fin 3072) :
    V m c main_v9 (ix2 k j) = (argWeights m c).Gs k j := by
  have e : (V m c main_v9 : S256x3072.Idx → EReal) = truncf (F := Ideal) .bf16 (extractStridedSlice S256x3072 ![0, 0]
      (transpose S288x3072 [1, 0] (a8 m c) transposes_S3072x288_S288x3072_1_0) slices_S288x3072_S256x3072_0_0
        : FVec Ideal S256x3072 .f32) bitsLt_bf16_f32 := by
    dsimp only [Gen.V, Gen.hostOps0]; after_results
  rw [e, truncf_apply]
  refine (slice2_apply 288 3072 256 3072 0 0 _ _ k j (by omega) (by omega)).trans ?_
  exact transpose2_apply 3072 288 _ _ _ _

/-- The staged action block: columns 256–287, transposed. -/
theorem V_wiha (c : Dev nD) (k : Fin 32) (j : Fin 3072) :
    V m c main_v11 (ix2 k j) = (argWeights m c).Ga k j := by
  have e : (V m c main_v11 : S32x3072.Idx → EReal) = truncf (F := Ideal) .bf16 (extractStridedSlice S32x3072 ![256, 0]
      (transpose S288x3072 [1, 0] (a8 m c) transposes_S3072x288_S288x3072_1_0) slices_S288x3072_S32x3072_256_0
        : FVec Ideal S32x3072 .f32) bitsLt_bf16_f32 := by
    dsimp only [Gen.V, Gen.hostOps0]; after_results
  rw [e, truncf_apply]
  refine (slice2_apply 288 3072 32 3072 256 0 _ _ k j (by omega) (by omega)).trans ?_
  exact transpose2_apply 3072 288 _ _ _ _

/-- The gated unit's state matrix is staged transposed. -/
theorem V_whh (c : Dev nD) (k : Fin 1024) (j : Fin 3072) :
    V m c main_v13 (ix2 k j) = (argWeights m c).Gh k j := by
  have e : (V m c main_v13 : S1024x3072.Idx → EReal) = truncf (F := Ideal) .bf16
      (transpose S1024x3072 [1, 0] (a9 m c) transposes_S3072x1024_S1024x3072_1_0 : FVec Ideal S1024x3072 .f32) bitsLt_bf16_f32 := by
    dsimp only [Gen.V, Gen.hostOps0]; after_results
  rw [e, truncf_apply]
  exact transpose2_apply 3072 1024 _ _ _ _

/-- The gated unit's input bias, staged as a single row. -/
theorem V_bih (c : Dev nD) (j : Fin 3072) :
    V m c main_v16 (ix2 (0 : Fin 1) j) = (argWeights m c).bi j := by
  have e : (V m c main_v16 : S1x3072.Idx → EReal) = shapeCast S1x3072 (a10 m c) shapeCasts_S3072_S1x3072 := by
    dsimp only [Gen.V, Gen.hostOps0]; after_results; rfl
  rw [e]
  exact rowOfVec_apply 3072 _ _ j

/-- Its state bias, staged as a single row. -/
theorem V_bhh (c : Dev nD) (j : Fin 3072) :
    V m c main_v17 (ix2 (0 : Fin 1) j) = (argWeights m c).bh j := by
  have e : (V m c main_v17 : S1x3072.Idx → EReal) = shapeCast S1x3072 (a11 m c) shapeCasts_S3072_S1x3072 := by
    dsimp only [Gen.V, Gen.hostOps0]; after_results; rfl
  rw [e]
  exact rowOfVec_apply 3072 _ _ j

/-! ## The index maps, decided over the 64 grid points -/

/-- The four activation windows move down the batch axis with the point. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The eleven weight windows stay on their one block. -/
theorem idx_weights : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- The four output windows move down the batch axis with the point. -/
theorem idx_outs : ∀ t : Fin cfg0.N,
    (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0) :=
  (by decide +kernel : ∀ t : Fin grid0.N, _)

/-- A grid point is below 64. -/
theorem point_lt (t : Fin cfg0.N) : t.val < 64 := lt_of_lt_of_eq t.isLt N_0

/-! ## The blocks, entry by entry -/

/-- Row `p` of point `t`'s state block is batch row `128 t + p` of the previous state. -/
theorem blk0 (c : Dev nD) (t : Fin cfg0.N) (p : Fin 128) (k : Fin 1024) (r : Fin 8192) (hr : r.val = t.val * 128 + p.val) :
    iblk m c 0 t (ix2 p k) = a0 m c (ix2 r k) := by
  obtain ⟨⟨e0, e1⟩, -⟩ := idx_rows t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = r.val; have := (idx_rows t); omega
  | ⟨1, _⟩ => show win0_0.index t (1 : Fin 2) * 1024 + 1 * k.val = k.val; have := (idx_rows t); omega

/-- Row `p` of point `t`'s action block is batch row `128 t + p` of the previous action. -/
theorem blk1 (c : Dev nD) (t : Fin cfg0.N) (p : Fin 128) (k : Fin 32) (r : Fin 8192) (hr : r.val = t.val * 128 + p.val) :
    iblk m c 1 t (ix2 p k) = a1 m c (ix2 r k) := by
  obtain ⟨⟨e0, e1⟩, -⟩ := idx_rows t
  show V m c main_arg1 (((cfg0.win 1).blk t).view.emb (ix2 p k)) = _
  rw [V_main_arg1]
  refine congrArg _ (funext fun a => Fin.ext ?_)
  match a with
  | ⟨0, _⟩ => show win0_1.index t (0 : Fin 2) * 128 + 1 * p.val = r.val; have := (idx_rows t); omega
  | ⟨1, _⟩ => show win0_1.index t (1 : Fin 2) * 32 + 1 * k.val = k.val; have := (idx_rows t); omega

/-- Row `p` of point `t`'s observation block is batch row `128 t + p` of the observation. -/
theorem blk2 (c : Dev nD) (t : Fin cfg0.N) (p : Fin 128) (k : Fin 2048) (r : Fin 8192) (hr : r.val = t.val * 128 + p.val) :
    iblk m c 2 t (ix2 p k) = a2 m c (ix2 r k) := by
  obtain ⟨⟨e0, e1⟩, -⟩ := idx_rows t
  show V m c main_arg2 (((cfg0.win 2).blk t).view.emb (ix2 p k)) = _
  rw [V_main_arg2]
  refine congrArg _ (funext fun a => Fin.ext ?_)
  match a with
  | ⟨0, _⟩ => show win0_2.index t (0 : Fin 2) * 128 + 1 * p.val = r.val; have := (idx_rows t); omega
  | ⟨1, _⟩ => show win0_2.index t (1 : Fin 2) * 2048 + 1 * k.val = k.val; have := (idx_rows t); omega

/-- Row `p` of point `t`'s noise block is batch row `128 t + p` of the noise. -/
theorem blk3 (c : Dev nD) (t : Fin cfg0.N) (p : Fin 128) (k : Fin 256) (r : Fin 8192) (hr : r.val = t.val * 128 + p.val) :
    iblk m c 3 t (ix2 p k) = a3 m c (ix2 r k) := by
  obtain ⟨⟨e0, e1⟩, -⟩ := idx_rows t
  show V m c main_arg3 (((cfg0.win 3).blk t).view.emb (ix2 p k)) = _
  rw [V_main_arg3]
  refine congrArg _ (funext fun a => Fin.ext ?_)
  match a with
  | ⟨0, _⟩ => show win0_3.index t (0 : Fin 2) * 128 + 1 * p.val = r.val; have := (idx_rows t); omega
  | ⟨1, _⟩ => show win0_3.index t (1 : Fin 2) * 256 + 1 * k.val = k.val; have := (idx_rows t); omega

/-- At every point the state block of the first layer's matrix is the whole staged array. -/
theorem blk4 (c : Dev nD) (t : Fin cfg0.N) (k : Fin 1024) (j : Fin 1024) :
    iblk m c 4 t (ix2 k j) = (argWeights m c).A1 k j := by
  rw [← V_w1s m c k j]
  show V m c main_v1 (((cfg0.win 4).blk t).view.emb (ix2 k j)) = _
  refine congrArg _ (funext fun a => Fin.ext ?_)
  match a with
  | ⟨0, _⟩ => show win0_4.index t (0 : Fin 2) * 1024 + 1 * k.val = k.val; have := (idx_weights t); omega
  | ⟨1, _⟩ => show win0_4.index t (1 : Fin 2) * 1024 + 1 * j.val = j.val; have := (idx_weights t); omega

/-- At every point the action block of the first layer's matrix is the whole staged array. -/
theorem blk5 (c : Dev nD) (t : Fin cfg0.N) (k : Fin 32) (j : Fin 1024) :
    iblk m c 5 t (ix2 k j) = (argWeights m c).A2 k j := by
  rw [← V_w1a m c k j]
  show V m c main_v3 (((cfg0.win 5).blk t).view.emb (ix2 k j)) = _
  refine congrArg _ (funext fun a => Fin.ext ?_)
  match a with
  | ⟨0, _⟩ => show win0_5.index t (0 : Fin 2) * 32 + 1 * k.val = k.val; have := (idx_weights t); omega
  | ⟨1, _⟩ => show win0_5.index t (1 : Fin 2) * 1024 + 1 * j.val = j.val; have := (idx_weights t); omega

/-- At every point the observation block of the first layer's matrix is the whole staged array. -/
theorem blk6 (c : Dev nD) (t : Fin cfg0.N) (k : Fin 2048) (j : Fin 1024) :
    iblk m c 6 t (ix2 k j) = (argWeights m c).A3 k j := by
  rw [← V_w1o m c k j]
  show V m c main_v5 (((cfg0.win 6).blk t).view.emb (ix2 k j)) = _
  refine congrArg _ (funext fun a => Fin.ext ?_)
  match a with
  | ⟨0, _⟩ => show win0_6.index t (0 : Fin 2) * 2048 + 1 * k.val = k.val; have := (idx_weights t); omega
  | ⟨1, _⟩ => show win0_6.index t (1 : Fin 2) * 1024 + 1 * j.val = j.val; have := (idx_weights t); omega

/-- At every point the first bias row is the whole staged row. -/
theorem blk7 (c : Dev nD) (t : Fin cfg0.N) (j : Fin 1024) :
    iblk m c 7 t (ix2 (0 : Fin 1) j) = (argWeights m c).b1 j := by
  rw [← V_b1 m c j]
  show V m c main_v14 (((cfg0.win 7).blk t).view.emb (ix2 (0 : Fin 1) j)) = _
  refine congrArg _ (funext fun a => Fin.ext ?_)
  match a with
  | ⟨0, _⟩ => show win0_7.index t (0 : Fin 2) * 1 + 1 * 0 = 0; have := (idx_weights t); omega
  | ⟨1, _⟩ => show win0_7.index t (1 : Fin 2) * 1024 + 1 * j.val = j.val; have := (idx_weights t); omega

/-- At every point the second layer's matrix block is the whole staged array. -/
theorem blk8 (c : Dev nD) (t : Fin cfg0.N) (k : Fin 1024) (j : Fin 512) :
    iblk m c 8 t (ix2 k j) = (argWeights m c).W2 k j := by
  rw [← V_w2 m c k j]
  show V m c main_v6 (((cfg0.win 8).blk t).view.emb (ix2 k j)) = _
  refine congrArg _ (funext fun a => Fin.ext ?_)
  match a with
  | ⟨0, _⟩ => show win0_8.index t (0 : Fin 2) * 1024 + 1 * k.val = k.val; have := (idx_weights t); omega
  | ⟨1, _⟩ => show win0_8.index t (1 : Fin 2) * 512 + 1 * j.val = j.val; have := (idx_weights t); omega

/-- At every point the second bias row is the whole staged row. -/
theorem blk9 (c : Dev nD) (t : Fin cfg0.N) (j : Fin 512) :
    iblk m c 9 t (ix2 (0 : Fin 1) j) = (argWeights m c).b2 j := by
  rw [← V_b2 m c j]
  show V m c main_v15 (((cfg0.win 9).blk t).view.emb (ix2 (0 : Fin 1) j)) = _
  refine congrArg _ (funext fun a => Fin.ext ?_)
  match a with
  | ⟨0, _⟩ => show win0_9.index t (0 : Fin 2) * 1 + 1 * 0 = 0; have := (idx_weights t); omega
  | ⟨1, _⟩ => show win0_9.index t (1 : Fin 2) * 512 + 1 * j.val = j.val; have := (idx_weights t); omega

/-- At every point the sample block of the gated unit's input matrix is the whole staged array. -/
theorem blk10 (c : Dev nD) (t : Fin cfg0.N) (k : Fin 256) (j : Fin 3072) :
    iblk m c 10 t (ix2 k j) = (argWeights m c).Gs k j := by
  rw [← V_wihs m c k j]
  show V m c main_v9 (((cfg0.win 10).blk t).view.emb (ix2 k j)) = _
  refine congrArg _ (funext fun a => Fin.ext ?_)
  match a with
  | ⟨0, _⟩ => show win0_10.index t (0 : Fin 2) * 256 + 1 * k.val = k.val; have := (idx_weights t); omega
  | ⟨1, _⟩ => show win0_10.index t (1 : Fin 2) * 3072 + 1 * j.val = j.val; have := (idx_weights t); omega

/-- At every point the action block of the gated unit's input matrix is the whole staged array. -/
theorem blk11 (c : Dev nD) (t : Fin cfg0.N) (k : Fin 32) (j : Fin 3072) :
    iblk m c 11 t (ix2 k j) = (argWeights m c).Ga k j := by
  rw [← V_wiha m c k j]
  show V m c main_v11 (((cfg0.win 11).blk t).view.emb (ix2 k j)) = _
  refine congrArg _ (funext fun a => Fin.ext ?_)
  match a with
  | ⟨0, _⟩ => show win0_11.index t (0 : Fin 2) * 32 + 1 * k.val = k.val; have := (idx_weights t); omega
  | ⟨1, _⟩ => show win0_11.index t (1 : Fin 2) * 3072 + 1 * j.val = j.val; have := (idx_weights t); omega

/-- At every point the gated unit's state matrix block is the whole staged array. -/
theorem blk12 (c : Dev nD) (t : Fin cfg0.N) (k : Fin 1024) (j : Fin 3072) :
    iblk m c 12 t (ix2 k j) = (argWeights m c).Gh k j := by
  rw [← V_whh m c k j]
  show V m c main_v13 (((cfg0.win 12).blk t).view.emb (ix2 k j)) = _
  refine congrArg _ (funext fun a => Fin.ext ?_)
  match a with
  | ⟨0, _⟩ => show win0_12.index t (0 : Fin 2) * 1024 + 1 * k.val = k.val; have := (idx_weights t); omega
  | ⟨1, _⟩ => show win0_12.index t (1 : Fin 2) * 3072 + 1 * j.val = j.val; have := (idx_weights t); omega

/-- At every point the input bias row is the whole staged row. -/
theorem blk13 (c : Dev nD) (t : Fin cfg0.N) (j : Fin 3072) :
    iblk m c 13 t (ix2 (0 : Fin 1) j) = (argWeights m c).bi j := by
  rw [← V_bih m c j]
  show V m c main_v16 (((cfg0.win 13).blk t).view.emb (ix2 (0 : Fin 1) j)) = _
  refine congrArg _ (funext fun a => Fin.ext ?_)
  match a with
  | ⟨0, _⟩ => show win0_13.index t (0 : Fin 2) * 1 + 1 * 0 = 0; have := (idx_weights t); omega
  | ⟨1, _⟩ => show win0_13.index t (1 : Fin 2) * 3072 + 1 * j.val = j.val; have := (idx_weights t); omega

/-- At every point the state bias row is the whole staged row. -/
theorem blk14 (c : Dev nD) (t : Fin cfg0.N) (j : Fin 3072) :
    iblk m c 14 t (ix2 (0 : Fin 1) j) = (argWeights m c).bh j := by
  rw [← V_bhh m c j]
  show V m c main_v17 (((cfg0.win 14).blk t).view.emb (ix2 (0 : Fin 1) j)) = _
  refine congrArg _ (funext fun a => Fin.ext ?_)
  match a with
  | ⟨0, _⟩ => show win0_14.index t (0 : Fin 2) * 1 + 1 * 0 = 0; have := (idx_weights t); omega
  | ⟨1, _⟩ => show win0_14.index t (1 : Fin 2) * 3072 + 1 * j.val = j.val; have := (idx_weights t); omega

/-- Two rows with the same entries are one row. -/
theorem row_ext {x y : Row} (hs : ∀ k, x.s k = y.s k) (ha : ∀ k, x.a k = y.a k) (ho : ∀ k, x.o k = y.o k)
    (he : ∀ k, x.e k = y.e k) : x = y := by
  cases x; cases y
  simp only [Row.mk.injEq]
  exact ⟨funext hs, funext ha, funext ho, funext he⟩

/-- Two weight records with the same entries are one. -/
theorem weights_ext {x y : Weights} (h1 : ∀ k j, x.A1 k j = y.A1 k j) (h2 : ∀ k j, x.A2 k j = y.A2 k j)
    (h3 : ∀ k j, x.A3 k j = y.A3 k j) (h4 : ∀ j, x.b1 j = y.b1 j) (h5 : ∀ k j, x.W2 k j = y.W2 k j)
    (h6 : ∀ j, x.b2 j = y.b2 j) (h7 : ∀ k j, x.Gs k j = y.Gs k j) (h8 : ∀ k j, x.Ga k j = y.Ga k j)
    (h9 : ∀ k j, x.Gh k j = y.Gh k j) (h10 : ∀ j, x.bi j = y.bi j) (h11 : ∀ j, x.bh j = y.bh j) : x = y := by
  cases x; cases y
  simp only [Weights.mk.injEq]
  exact ⟨funext fun k => funext (h1 k), funext fun k => funext (h2 k), funext fun k => funext (h3 k), funext h4,
    funext fun k => funext (h5 k), funext h6, funext fun k => funext (h7 k), funext fun k => funext (h8 k),
    funext fun k => funext (h9 k), funext h10, funext h11⟩

/-! ## The four output arrays as functions of the arguments -/

/-- The mean of every batch row. -/
abbrev meanArr (c : Dev nD) : S8192x256.Idx → Elt Ideal .f32 := fun i => mean (argRow m c (i 0)) (argWeights m c) (i 1)
/-- The variance of every batch row. -/
abbrev varArr (c : Dev nD) : S8192x256.Idx → Elt Ideal .f32 := fun i => var (argRow m c (i 0)) (argWeights m c) (i 1)
/-- The sample of every batch row. -/
abbrev sampleArr (c : Dev nD) : S8192x256.Idx → Elt Ideal .f32 := fun i => sample (argRow m c (i 0)) (argWeights m c) (i 1)
/-- The new belief of every batch row. -/
abbrev beliefArr (c : Dev nD) : S8192x1024.Idx → Elt Ideal .f32 := fun i => belief (argRow m c (i 0)) (argWeights m c) (i 1)

/-- The zero offsets of a whole-block rectangle. -/
theorem hz : (![0, 0] : Fin 2 → Nat) = fun _ => 0 := funext fun a => by fin_cases a <;> rfl

/-! ## One block entry against one array entry, over variables of the literal block shapes -/

/-- One entry of the mean block is the mean array's entry at the batch row and column it lands on, given the block's rows and the weights entry by entry. -/
theorem mean_point (c : Dev nD) (X0 : Vec Ideal S128x1024 .f32) (X1 : Vec Ideal S128x32 .f32) (X2 : Vec Ideal S128x2048 .f32)
    (X3 : Vec Ideal S128x256 .f32) (W1s : Vec Ideal S1024x1024 .bf16) (W1a : Vec Ideal S32x1024 .bf16)
    (W1o : Vec Ideal S2048x1024 .bf16) (B1 : Vec Ideal S1x1024 .f32) (W2 : Vec Ideal S1024x512 .bf16)
    (B2 : Vec Ideal S1x512 .f32) (Wihs : Vec Ideal S256x3072 .bf16) (Wiha : Vec Ideal S32x3072 .bf16)
    (Whh : Vec Ideal S1024x3072 .bf16) (Bih Bhh : Vec Ideal S1x3072 .f32)
    (r : Fin 8192) (p : Fin 128) (q : Fin 256) (i : S8192x256.Idx)
    (h0 : ∀ k, X0 (ix2 p k) = a0 m c (ix2 r k)) (h1 : ∀ k, X1 (ix2 p k) = a1 m c (ix2 r k))
    (h2 : ∀ k, X2 (ix2 p k) = a2 m c (ix2 r k)) (h3 : ∀ k, X3 (ix2 p k) = a3 m c (ix2 r k))
    (h4 : ∀ k j, W1s (ix2 k j) = (argWeights m c).A1 k j) (h5 : ∀ k j, W1a (ix2 k j) = (argWeights m c).A2 k j)
    (h6 : ∀ k j, W1o (ix2 k j) = (argWeights m c).A3 k j) (h7 : ∀ j, B1 (ix2 (0 : Fin 1) j) = (argWeights m c).b1 j)
    (h8 : ∀ k j, W2 (ix2 k j) = (argWeights m c).W2 k j) (h9 : ∀ j, B2 (ix2 (0 : Fin 1) j) = (argWeights m c).b2 j)
    (h10 : ∀ k j, Wihs (ix2 k j) = (argWeights m c).Gs k j) (h11 : ∀ k j, Wiha (ix2 k j) = (argWeights m c).Ga k j)
    (h12 : ∀ k j, Whh (ix2 k j) = (argWeights m c).Gh k j) (h13 : ∀ j, Bih (ix2 (0 : Fin 1) j) = (argWeights m c).bi j)
    (h14 : ∀ j, Bhh (ix2 (0 : Fin 1) j) = (argWeights m c).bh j)
    (hi0 : i 0 = r) (hi1 : i 1 = q) :
    k0_pay4 (F := Ideal) X0 X1 X2 W1s W1a W1o B1 W2 B2 (ix2 p q) = meanArr m c i := by
  have hrow : blockRow X0 X1 X2 X3 p = argRow m c r := row_ext h0 h1 h2 h3
  have hw : blockWeights W1s W1a W1o B1 W2 B2 Wihs Wiha Whh Bih Bhh = argWeights m c :=
    weights_ext h4 h5 h6 h7 h8 h9 h10 h11 h12 h13 h14
  rw [pay4_apply X0 X1 X2 X3 W1s W1a W1o B1 W2 B2 Wihs Wiha Whh Bih Bhh, hrow, hw]
  show mean (argRow m c r) (argWeights m c) q = mean (argRow m c (i 0)) (argWeights m c) (i 1)
  rw [hi0, hi1]

/-- The same for the variance. -/
theorem var_point (c : Dev nD) (X0 : Vec Ideal S128x1024 .f32) (X1 : Vec Ideal S128x32 .f32) (X2 : Vec Ideal S128x2048 .f32)
    (X3 : Vec Ideal S128x256 .f32) (W1s : Vec Ideal S1024x1024 .bf16) (W1a : Vec Ideal S32x1024 .bf16)
    (W1o : Vec Ideal S2048x1024 .bf16) (B1 : Vec Ideal S1x1024 .f32) (W2 : Vec Ideal S1024x512 .bf16)
    (B2 : Vec Ideal S1x512 .f32) (Wihs : Vec Ideal S256x3072 .bf16) (Wiha : Vec Ideal S32x3072 .bf16)
    (Whh : Vec Ideal S1024x3072 .bf16) (Bih Bhh : Vec Ideal S1x3072 .f32)
    (r : Fin 8192) (p : Fin 128) (q : Fin 256) (i : S8192x256.Idx)
    (h0 : ∀ k, X0 (ix2 p k) = a0 m c (ix2 r k)) (h1 : ∀ k, X1 (ix2 p k) = a1 m c (ix2 r k))
    (h2 : ∀ k, X2 (ix2 p k) = a2 m c (ix2 r k)) (h3 : ∀ k, X3 (ix2 p k) = a3 m c (ix2 r k))
    (h4 : ∀ k j, W1s (ix2 k j) = (argWeights m c).A1 k j) (h5 : ∀ k j, W1a (ix2 k j) = (argWeights m c).A2 k j)
    (h6 : ∀ k j, W1o (ix2 k j) = (argWeights m c).A3 k j) (h7 : ∀ j, B1 (ix2 (0 : Fin 1) j) = (argWeights m c).b1 j)
    (h8 : ∀ k j, W2 (ix2 k j) = (argWeights m c).W2 k j) (h9 : ∀ j, B2 (ix2 (0 : Fin 1) j) = (argWeights m c).b2 j)
    (h10 : ∀ k j, Wihs (ix2 k j) = (argWeights m c).Gs k j) (h11 : ∀ k j, Wiha (ix2 k j) = (argWeights m c).Ga k j)
    (h12 : ∀ k j, Whh (ix2 k j) = (argWeights m c).Gh k j) (h13 : ∀ j, Bih (ix2 (0 : Fin 1) j) = (argWeights m c).bi j)
    (h14 : ∀ j, Bhh (ix2 (0 : Fin 1) j) = (argWeights m c).bh j)
    (hi0 : i 0 = r) (hi1 : i 1 = q) :
    k0_pay5 (F := Ideal) X0 X1 X2 W1s W1a W1o B1 W2 B2 (ix2 p q) = varArr m c i := by
  have hrow : blockRow X0 X1 X2 X3 p = argRow m c r := row_ext h0 h1 h2 h3
  have hw : blockWeights W1s W1a W1o B1 W2 B2 Wihs Wiha Whh Bih Bhh = argWeights m c :=
    weights_ext h4 h5 h6 h7 h8 h9 h10 h11 h12 h13 h14
  rw [pay5_apply X0 X1 X2 X3 W1s W1a W1o B1 W2 B2 Wihs Wiha Whh Bih Bhh, hrow, hw]
  show var (argRow m c r) (argWeights m c) q = var (argRow m c (i 0)) (argWeights m c) (i 1)
  rw [hi0, hi1]

/-- The same for the sample. -/
theorem sample_point (c : Dev nD) (X0 : Vec Ideal S128x1024 .f32) (X1 : Vec Ideal S128x32 .f32) (X2 : Vec Ideal S128x2048 .f32)
    (X3 : Vec Ideal S128x256 .f32) (W1s : Vec Ideal S1024x1024 .bf16) (W1a : Vec Ideal S32x1024 .bf16)
    (W1o : Vec Ideal S2048x1024 .bf16) (B1 : Vec Ideal S1x1024 .f32) (W2 : Vec Ideal S1024x512 .bf16)
    (B2 : Vec Ideal S1x512 .f32) (Wihs : Vec Ideal S256x3072 .bf16) (Wiha : Vec Ideal S32x3072 .bf16)
    (Whh : Vec Ideal S1024x3072 .bf16) (Bih Bhh : Vec Ideal S1x3072 .f32)
    (r : Fin 8192) (p : Fin 128) (q : Fin 256) (i : S8192x256.Idx)
    (h0 : ∀ k, X0 (ix2 p k) = a0 m c (ix2 r k)) (h1 : ∀ k, X1 (ix2 p k) = a1 m c (ix2 r k))
    (h2 : ∀ k, X2 (ix2 p k) = a2 m c (ix2 r k)) (h3 : ∀ k, X3 (ix2 p k) = a3 m c (ix2 r k))
    (h4 : ∀ k j, W1s (ix2 k j) = (argWeights m c).A1 k j) (h5 : ∀ k j, W1a (ix2 k j) = (argWeights m c).A2 k j)
    (h6 : ∀ k j, W1o (ix2 k j) = (argWeights m c).A3 k j) (h7 : ∀ j, B1 (ix2 (0 : Fin 1) j) = (argWeights m c).b1 j)
    (h8 : ∀ k j, W2 (ix2 k j) = (argWeights m c).W2 k j) (h9 : ∀ j, B2 (ix2 (0 : Fin 1) j) = (argWeights m c).b2 j)
    (h10 : ∀ k j, Wihs (ix2 k j) = (argWeights m c).Gs k j) (h11 : ∀ k j, Wiha (ix2 k j) = (argWeights m c).Ga k j)
    (h12 : ∀ k j, Whh (ix2 k j) = (argWeights m c).Gh k j) (h13 : ∀ j, Bih (ix2 (0 : Fin 1) j) = (argWeights m c).bi j)
    (h14 : ∀ j, Bhh (ix2 (0 : Fin 1) j) = (argWeights m c).bh j)
    (hi0 : i 0 = r) (hi1 : i 1 = q) :
    k0_pay6 (F := Ideal) X3 (k0_pay4 X0 X1 X2 W1s W1a W1o B1 W2 B2) (k0_pay5 X0 X1 X2 W1s W1a W1o B1 W2 B2) (ix2 p q) = sampleArr m c i := by
  have hrow : blockRow X0 X1 X2 X3 p = argRow m c r := row_ext h0 h1 h2 h3
  have hw : blockWeights W1s W1a W1o B1 W2 B2 Wihs Wiha Whh Bih Bhh = argWeights m c :=
    weights_ext h4 h5 h6 h7 h8 h9 h10 h11 h12 h13 h14
  rw [pay6_apply X0 X1 X2 X3 W1s W1a W1o B1 W2 B2 Wihs Wiha Whh Bih Bhh, hrow, hw]
  show sample (argRow m c r) (argWeights m c) q = sample (argRow m c (i 0)) (argWeights m c) (i 1)
  rw [hi0, hi1]

/-- The same for the belief. -/
theorem belief_point (c : Dev nD) (X0 : Vec Ideal S128x1024 .f32) (X1 : Vec Ideal S128x32 .f32) (X2 : Vec Ideal S128x2048 .f32)
    (X3 : Vec Ideal S128x256 .f32) (W1s : Vec Ideal S1024x1024 .bf16) (W1a : Vec Ideal S32x1024 .bf16)
    (W1o : Vec Ideal S2048x1024 .bf16) (B1 : Vec Ideal S1x1024 .f32) (W2 : Vec Ideal S1024x512 .bf16)
    (B2 : Vec Ideal S1x512 .f32) (Wihs : Vec Ideal S256x3072 .bf16) (Wiha : Vec Ideal S32x3072 .bf16)
    (Whh : Vec Ideal S1024x3072 .bf16) (Bih Bhh : Vec Ideal S1x3072 .f32)
    (r : Fin 8192) (p : Fin 128) (q : Fin 1024) (i : S8192x1024.Idx)
    (h0 : ∀ k, X0 (ix2 p k) = a0 m c (ix2 r k)) (h1 : ∀ k, X1 (ix2 p k) = a1 m c (ix2 r k))
    (h2 : ∀ k, X2 (ix2 p k) = a2 m c (ix2 r k)) (h3 : ∀ k, X3 (ix2 p k) = a3 m c (ix2 r k))
    (h4 : ∀ k j, W1s (ix2 k j) = (argWeights m c).A1 k j) (h5 : ∀ k j, W1a (ix2 k j) = (argWeights m c).A2 k j)
    (h6 : ∀ k j, W1o (ix2 k j) = (argWeights m c).A3 k j) (h7 : ∀ j, B1 (ix2 (0 : Fin 1) j) = (argWeights m c).b1 j)
    (h8 : ∀ k j, W2 (ix2 k j) = (argWeights m c).W2 k j) (h9 : ∀ j, B2 (ix2 (0 : Fin 1) j) = (argWeights m c).b2 j)
    (h10 : ∀ k j, Wihs (ix2 k j) = (argWeights m c).Gs k j) (h11 : ∀ k j, Wiha (ix2 k j) = (argWeights m c).Ga k j)
    (h12 : ∀ k j, Whh (ix2 k j) = (argWeights m c).Gh k j) (h13 : ∀ j, Bih (ix2 (0 : Fin 1) j) = (argWeights m c).bi j)
    (h14 : ∀ j, Bhh (ix2 (0 : Fin 1) j) = (argWeights m c).bh j)
    (hi0 : i 0 = r) (hi1 : i 1 = q) :
    k0_pay7 (F := Ideal) X0 X3 (k0_pay1 X0) (k0_pay2 X1) (k0_pay4 X0 X1 X2 W1s W1a W1o B1 W2 B2) (k0_pay5 X0 X1 X2 W1s W1a W1o B1 W2 B2) Wihs Wiha Bih Whh Bhh (ix2 p q) = beliefArr m c i := by
  have hrow : blockRow X0 X1 X2 X3 p = argRow m c r := row_ext h0 h1 h2 h3
  have hw : blockWeights W1s W1a W1o B1 W2 B2 Wihs Wiha Whh Bih Bhh = argWeights m c :=
    weights_ext h4 h5 h6 h7 h8 h9 h10 h11 h12 h13 h14
  rw [pay7_apply X0 X1 X2 X3 W1s W1a W1o B1 W2 B2 Wihs Wiha Whh Bih Bhh, hrow, hw]
  show belief (argRow m c r) (argWeights m c) q = belief (argRow m c (i 0)) (argWeights m c) (i 1)
  rw [hi0, hi1]

/-! ## Blocks to arrays -/

/-- What point `t` writes back to the mean array is block `t` of the row step over the batch. -/
theorem flushed15_eq (c : Dev nD) (t : Fin cfg0.N) :
    (dats m 0 c).flushed 15 t = ((cfg0.win 15).blk t).view.read (Elt Ideal) (meanArr m c) := by
  rw [Value.flushed15]
  unfold out0_15
  rw [View.canon_unit_zero hz]
  simp only [View.ld_unit_zero (S := S128x1024) hz,
    View.ld_unit_zero (S := S128x32) hz,
    View.ld_unit_zero (S := S128x2048) hz,
    View.ld_unit_zero (S := S128x256) hz,
    View.ld_unit_zero (S := S1024x1024) hz,
    View.ld_unit_zero (S := S32x1024) hz,
    View.ld_unit_zero (S := S2048x1024) hz,
    View.ld_unit_zero (S := S1x1024) hz,
    View.ld_unit_zero (S := S1024x512) hz,
    View.ld_unit_zero (S := S1x512) hz,
    View.ld_unit_zero (S := S256x3072) hz,
    View.ld_unit_zero (S := S32x3072) hz,
    View.ld_unit_zero (S := S1024x3072) hz,
    View.ld_unit_zero (S := S1x3072) hz]
  have ht := point_lt t
  have ho := idx_outs t
  refine funext fun (y : S128x256.Idx) => ?_
  obtain ⟨p, q, rfl⟩ : ∃ (p : Fin 128) (q : Fin 256), y = ix2 p q := ⟨y 0, y 1, eq_ix2 y⟩
  show k0_pay4 (F := Ideal) (iblk m c 0 t) (iblk m c 1 t) (iblk m c 2 t) (iblk m c 4 t) (iblk m c 5 t) (iblk m c 6 t) (iblk m c 7 t) (iblk m c 8 t) (iblk m c 9 t) (ix2 p q) = meanArr m c (((cfg0.win 15).blk t).view.emb (ix2 p q))
  refine mean_point m c (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
    (⟨t.val * 128 + p.val, by omega⟩ : Fin 8192) p q _
    (fun k => blk0 m c t p k _ rfl) (fun k => blk1 m c t p k _ rfl) (fun k => blk2 m c t p k _ rfl)
    (fun k => blk3 m c t p k _ rfl)
    (fun k j => blk4 m c t k j) (fun k j => blk5 m c t k j) (fun k j => blk6 m c t k j) (fun j => blk7 m c t j)
    (fun k j => blk8 m c t k j) (fun j => blk9 m c t j) (fun k j => blk10 m c t k j) (fun k j => blk11 m c t k j)
    (fun k j => blk12 m c t k j) (fun j => blk13 m c t j) (fun j => blk14 m c t j)
    (Fin.ext ?_) (Fin.ext ?_)
  · show win0_15.index t (0 : Fin 2) * 128 + 1 * p.val = t.val * 128 + p.val; omega
  · show win0_15.index t (1 : Fin 2) * 256 + 1 * q.val = q.val; omega

/-- An index of the mean array is in point `t`'s block iff each coordinate is in the block's range. -/
theorem mem_blk15 (t : Fin cfg0.N) (i : S8192x256.Idx) :
    i ∈ ((cfg0.win 15).blk t).view.set ↔ ∀ a : Fin 2, win0_15.index t a * S128x256.size a ≤ (i a).val
      ∧ (i a).val < win0_15.index t a * S128x256.size a + S128x256.size a := by
  show i ∈ ((View.whole main_v18_0).slice (win0_15.rect t)).set ↔ _
  rw [View.set_slice_whole, Rect.mem_set_unit]
  exact Iff.rfl

/-- The 64 blocks tile the mean array: row `r` lies in block `r / 128`. -/
theorem cover15 (i : S8192x256.Idx) :
    ∃ t : Fin cfg0.N, (cfg0.win 15).flush t = true ∧ i ∈ ((cfg0.win 15).blk t).view.set := by
  have hi0 : (i 0).val < 8192 := (i 0).isLt
  have hi1 : (i 1).val < 256 := (i 1).isLt
  have hN : (i 0).val / 128 < cfg0.N := lt_of_lt_of_eq (by omega : (i 0).val / 128 < 64) N_0.symm
  obtain ⟨t, ht⟩ : ∃ t : Fin cfg0.N, t.val = (i 0).val / 128 := ⟨⟨(i 0).val / 128, hN⟩, rfl⟩
  have ho := idx_outs t
  refine ⟨t, flush0_15 t, ?_⟩
  rw [mem_blk15]
  intro a
  match a with
  | ⟨0, _⟩ =>
    show win0_15.index t (0 : Fin 2) * 128 ≤ (i 0).val ∧ (i 0).val < win0_15.index t (0 : Fin 2) * 128 + 128
    omega
  | ⟨1, _⟩ =>
    show win0_15.index t (1 : Fin 2) * 256 ≤ (i 1).val ∧ (i 1).val < win0_15.index t (1 : Fin 2) * 256 + 256
    omega

/-- After the run the mean array is the row step of every batch row. -/
theorem final15 (c : Dev nD) : (dats m 0 c).arrAt 15 cfg0.N = meanArr m c :=
  (dats m 0 c).arrAt_eq_of_cover 15 (meanArr m c) (fun t _ => flushed15_eq m c t) cover15

/-- What point `t` writes back to the var array is block `t` of the row step over the batch. -/
theorem flushed16_eq (c : Dev nD) (t : Fin cfg0.N) :
    (dats m 0 c).flushed 16 t = ((cfg0.win 16).blk t).view.read (Elt Ideal) (varArr m c) := by
  rw [Value.flushed16]
  unfold out0_16
  rw [View.canon_unit_zero hz]
  simp only [View.ld_unit_zero (S := S128x1024) hz,
    View.ld_unit_zero (S := S128x32) hz,
    View.ld_unit_zero (S := S128x2048) hz,
    View.ld_unit_zero (S := S128x256) hz,
    View.ld_unit_zero (S := S1024x1024) hz,
    View.ld_unit_zero (S := S32x1024) hz,
    View.ld_unit_zero (S := S2048x1024) hz,
    View.ld_unit_zero (S := S1x1024) hz,
    View.ld_unit_zero (S := S1024x512) hz,
    View.ld_unit_zero (S := S1x512) hz,
    View.ld_unit_zero (S := S256x3072) hz,
    View.ld_unit_zero (S := S32x3072) hz,
    View.ld_unit_zero (S := S1024x3072) hz,
    View.ld_unit_zero (S := S1x3072) hz]
  have ht := point_lt t
  have ho := idx_outs t
  refine funext fun (y : S128x256.Idx) => ?_
  obtain ⟨p, q, rfl⟩ : ∃ (p : Fin 128) (q : Fin 256), y = ix2 p q := ⟨y 0, y 1, eq_ix2 y⟩
  show k0_pay5 (F := Ideal) (iblk m c 0 t) (iblk m c 1 t) (iblk m c 2 t) (iblk m c 4 t) (iblk m c 5 t) (iblk m c 6 t) (iblk m c 7 t) (iblk m c 8 t) (iblk m c 9 t) (ix2 p q) = varArr m c (((cfg0.win 16).blk t).view.emb (ix2 p q))
  refine var_point m c (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
    (⟨t.val * 128 + p.val, by omega⟩ : Fin 8192) p q _
    (fun k => blk0 m c t p k _ rfl) (fun k => blk1 m c t p k _ rfl) (fun k => blk2 m c t p k _ rfl)
    (fun k => blk3 m c t p k _ rfl)
    (fun k j => blk4 m c t k j) (fun k j => blk5 m c t k j) (fun k j => blk6 m c t k j) (fun j => blk7 m c t j)
    (fun k j => blk8 m c t k j) (fun j => blk9 m c t j) (fun k j => blk10 m c t k j) (fun k j => blk11 m c t k j)
    (fun k j => blk12 m c t k j) (fun j => blk13 m c t j) (fun j => blk14 m c t j)
    (Fin.ext ?_) (Fin.ext ?_)
  · show win0_16.index t (0 : Fin 2) * 128 + 1 * p.val = t.val * 128 + p.val; omega
  · show win0_16.index t (1 : Fin 2) * 256 + 1 * q.val = q.val; omega

/-- An index of the var array is in point `t`'s block iff each coordinate is in the block's range. -/
theorem mem_blk16 (t : Fin cfg0.N) (i : S8192x256.Idx) :
    i ∈ ((cfg0.win 16).blk t).view.set ↔ ∀ a : Fin 2, win0_16.index t a * S128x256.size a ≤ (i a).val
      ∧ (i a).val < win0_16.index t a * S128x256.size a + S128x256.size a := by
  show i ∈ ((View.whole main_v18_1).slice (win0_16.rect t)).set ↔ _
  rw [View.set_slice_whole, Rect.mem_set_unit]
  exact Iff.rfl

/-- The 64 blocks tile the var array: row `r` lies in block `r / 128`. -/
theorem cover16 (i : S8192x256.Idx) :
    ∃ t : Fin cfg0.N, (cfg0.win 16).flush t = true ∧ i ∈ ((cfg0.win 16).blk t).view.set := by
  have hi0 : (i 0).val < 8192 := (i 0).isLt
  have hi1 : (i 1).val < 256 := (i 1).isLt
  have hN : (i 0).val / 128 < cfg0.N := lt_of_lt_of_eq (by omega : (i 0).val / 128 < 64) N_0.symm
  obtain ⟨t, ht⟩ : ∃ t : Fin cfg0.N, t.val = (i 0).val / 128 := ⟨⟨(i 0).val / 128, hN⟩, rfl⟩
  have ho := idx_outs t
  refine ⟨t, flush0_16 t, ?_⟩
  rw [mem_blk16]
  intro a
  match a with
  | ⟨0, _⟩ =>
    show win0_16.index t (0 : Fin 2) * 128 ≤ (i 0).val ∧ (i 0).val < win0_16.index t (0 : Fin 2) * 128 + 128
    omega
  | ⟨1, _⟩ =>
    show win0_16.index t (1 : Fin 2) * 256 ≤ (i 1).val ∧ (i 1).val < win0_16.index t (1 : Fin 2) * 256 + 256
    omega

/-- After the run the var array is the row step of every batch row. -/
theorem final16 (c : Dev nD) : (dats m 0 c).arrAt 16 cfg0.N = varArr m c :=
  (dats m 0 c).arrAt_eq_of_cover 16 (varArr m c) (fun t _ => flushed16_eq m c t) cover16

/-- What point `t` writes back to the sample array is block `t` of the row step over the batch. -/
theorem flushed17_eq (c : Dev nD) (t : Fin cfg0.N) :
    (dats m 0 c).flushed 17 t = ((cfg0.win 17).blk t).view.read (Elt Ideal) (sampleArr m c) := by
  rw [Value.flushed17]
  unfold out0_17
  rw [View.canon_unit_zero hz]
  simp only [View.ld_unit_zero (S := S128x1024) hz,
    View.ld_unit_zero (S := S128x32) hz,
    View.ld_unit_zero (S := S128x2048) hz,
    View.ld_unit_zero (S := S128x256) hz,
    View.ld_unit_zero (S := S1024x1024) hz,
    View.ld_unit_zero (S := S32x1024) hz,
    View.ld_unit_zero (S := S2048x1024) hz,
    View.ld_unit_zero (S := S1x1024) hz,
    View.ld_unit_zero (S := S1024x512) hz,
    View.ld_unit_zero (S := S1x512) hz,
    View.ld_unit_zero (S := S256x3072) hz,
    View.ld_unit_zero (S := S32x3072) hz,
    View.ld_unit_zero (S := S1024x3072) hz,
    View.ld_unit_zero (S := S1x3072) hz]
  have ht := point_lt t
  have ho := idx_outs t
  refine funext fun (y : S128x256.Idx) => ?_
  obtain ⟨p, q, rfl⟩ : ∃ (p : Fin 128) (q : Fin 256), y = ix2 p q := ⟨y 0, y 1, eq_ix2 y⟩
  show k0_pay6 (F := Ideal) (iblk m c 3 t) (k0_pay4 (iblk m c 0 t) (iblk m c 1 t) (iblk m c 2 t) (iblk m c 4 t) (iblk m c 5 t) (iblk m c 6 t) (iblk m c 7 t) (iblk m c 8 t) (iblk m c 9 t)) (k0_pay5 (iblk m c 0 t) (iblk m c 1 t) (iblk m c 2 t) (iblk m c 4 t) (iblk m c 5 t) (iblk m c 6 t) (iblk m c 7 t) (iblk m c 8 t) (iblk m c 9 t)) (ix2 p q) = sampleArr m c (((cfg0.win 17).blk t).view.emb (ix2 p q))
  refine sample_point m c (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
    (⟨t.val * 128 + p.val, by omega⟩ : Fin 8192) p q _
    (fun k => blk0 m c t p k _ rfl) (fun k => blk1 m c t p k _ rfl) (fun k => blk2 m c t p k _ rfl)
    (fun k => blk3 m c t p k _ rfl)
    (fun k j => blk4 m c t k j) (fun k j => blk5 m c t k j) (fun k j => blk6 m c t k j) (fun j => blk7 m c t j)
    (fun k j => blk8 m c t k j) (fun j => blk9 m c t j) (fun k j => blk10 m c t k j) (fun k j => blk11 m c t k j)
    (fun k j => blk12 m c t k j) (fun j => blk13 m c t j) (fun j => blk14 m c t j)
    (Fin.ext ?_) (Fin.ext ?_)
  · show win0_17.index t (0 : Fin 2) * 128 + 1 * p.val = t.val * 128 + p.val; omega
  · show win0_17.index t (1 : Fin 2) * 256 + 1 * q.val = q.val; omega

/-- An index of the sample array is in point `t`'s block iff each coordinate is in the block's range. -/
theorem mem_blk17 (t : Fin cfg0.N) (i : S8192x256.Idx) :
    i ∈ ((cfg0.win 17).blk t).view.set ↔ ∀ a : Fin 2, win0_17.index t a * S128x256.size a ≤ (i a).val
      ∧ (i a).val < win0_17.index t a * S128x256.size a + S128x256.size a := by
  show i ∈ ((View.whole main_v18_2).slice (win0_17.rect t)).set ↔ _
  rw [View.set_slice_whole, Rect.mem_set_unit]
  exact Iff.rfl

/-- The 64 blocks tile the sample array: row `r` lies in block `r / 128`. -/
theorem cover17 (i : S8192x256.Idx) :
    ∃ t : Fin cfg0.N, (cfg0.win 17).flush t = true ∧ i ∈ ((cfg0.win 17).blk t).view.set := by
  have hi0 : (i 0).val < 8192 := (i 0).isLt
  have hi1 : (i 1).val < 256 := (i 1).isLt
  have hN : (i 0).val / 128 < cfg0.N := lt_of_lt_of_eq (by omega : (i 0).val / 128 < 64) N_0.symm
  obtain ⟨t, ht⟩ : ∃ t : Fin cfg0.N, t.val = (i 0).val / 128 := ⟨⟨(i 0).val / 128, hN⟩, rfl⟩
  have ho := idx_outs t
  refine ⟨t, flush0_17 t, ?_⟩
  rw [mem_blk17]
  intro a
  match a with
  | ⟨0, _⟩ =>
    show win0_17.index t (0 : Fin 2) * 128 ≤ (i 0).val ∧ (i 0).val < win0_17.index t (0 : Fin 2) * 128 + 128
    omega
  | ⟨1, _⟩ =>
    show win0_17.index t (1 : Fin 2) * 256 ≤ (i 1).val ∧ (i 1).val < win0_17.index t (1 : Fin 2) * 256 + 256
    omega

/-- After the run the sample array is the row step of every batch row. -/
theorem final17 (c : Dev nD) : (dats m 0 c).arrAt 17 cfg0.N = sampleArr m c :=
  (dats m 0 c).arrAt_eq_of_cover 17 (sampleArr m c) (fun t _ => flushed17_eq m c t) cover17

/-- What point `t` writes back to the belief array is block `t` of the row step over the batch. -/
theorem flushed18_eq (c : Dev nD) (t : Fin cfg0.N) :
    (dats m 0 c).flushed 18 t = ((cfg0.win 18).blk t).view.read (Elt Ideal) (beliefArr m c) := by
  rw [Value.flushed18]
  unfold out0_18
  rw [View.canon_unit_zero hz]
  simp only [View.ld_unit_zero (S := S128x1024) hz,
    View.ld_unit_zero (S := S128x32) hz,
    View.ld_unit_zero (S := S128x2048) hz,
    View.ld_unit_zero (S := S128x256) hz,
    View.ld_unit_zero (S := S1024x1024) hz,
    View.ld_unit_zero (S := S32x1024) hz,
    View.ld_unit_zero (S := S2048x1024) hz,
    View.ld_unit_zero (S := S1x1024) hz,
    View.ld_unit_zero (S := S1024x512) hz,
    View.ld_unit_zero (S := S1x512) hz,
    View.ld_unit_zero (S := S256x3072) hz,
    View.ld_unit_zero (S := S32x3072) hz,
    View.ld_unit_zero (S := S1024x3072) hz,
    View.ld_unit_zero (S := S1x3072) hz]
  have ht := point_lt t
  have ho := idx_outs t
  refine funext fun (y : S128x1024.Idx) => ?_
  obtain ⟨p, q, rfl⟩ : ∃ (p : Fin 128) (q : Fin 1024), y = ix2 p q := ⟨y 0, y 1, eq_ix2 y⟩
  show k0_pay7 (F := Ideal) (iblk m c 0 t) (iblk m c 3 t) (k0_pay1 (iblk m c 0 t)) (k0_pay2 (iblk m c 1 t)) (k0_pay4 (iblk m c 0 t) (iblk m c 1 t) (iblk m c 2 t) (iblk m c 4 t) (iblk m c 5 t) (iblk m c 6 t) (iblk m c 7 t) (iblk m c 8 t) (iblk m c 9 t)) (k0_pay5 (iblk m c 0 t) (iblk m c 1 t) (iblk m c 2 t) (iblk m c 4 t) (iblk m c 5 t) (iblk m c 6 t) (iblk m c 7 t) (iblk m c 8 t) (iblk m c 9 t)) (iblk m c 10 t) (iblk m c 11 t) (iblk m c 13 t) (iblk m c 12 t) (iblk m c 14 t) (ix2 p q) = beliefArr m c (((cfg0.win 18).blk t).view.emb (ix2 p q))
  refine belief_point m c (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
    (⟨t.val * 128 + p.val, by omega⟩ : Fin 8192) p q _
    (fun k => blk0 m c t p k _ rfl) (fun k => blk1 m c t p k _ rfl) (fun k => blk2 m c t p k _ rfl)
    (fun k => blk3 m c t p k _ rfl)
    (fun k j => blk4 m c t k j) (fun k j => blk5 m c t k j) (fun k j => blk6 m c t k j) (fun j => blk7 m c t j)
    (fun k j => blk8 m c t k j) (fun j => blk9 m c t j) (fun k j => blk10 m c t k j) (fun k j => blk11 m c t k j)
    (fun k j => blk12 m c t k j) (fun j => blk13 m c t j) (fun j => blk14 m c t j)
    (Fin.ext ?_) (Fin.ext ?_)
  · show win0_18.index t (0 : Fin 2) * 128 + 1 * p.val = t.val * 128 + p.val; omega
  · show win0_18.index t (1 : Fin 2) * 1024 + 1 * q.val = q.val; omega

/-- An index of the belief array is in point `t`'s block iff each coordinate is in the block's range. -/
theorem mem_blk18 (t : Fin cfg0.N) (i : S8192x1024.Idx) :
    i ∈ ((cfg0.win 18).blk t).view.set ↔ ∀ a : Fin 2, win0_18.index t a * S128x1024.size a ≤ (i a).val
      ∧ (i a).val < win0_18.index t a * S128x1024.size a + S128x1024.size a := by
  show i ∈ ((View.whole main_v18_3).slice (win0_18.rect t)).set ↔ _
  rw [View.set_slice_whole, Rect.mem_set_unit]
  exact Iff.rfl

/-- The 64 blocks tile the belief array: row `r` lies in block `r / 128`. -/
theorem cover18 (i : S8192x1024.Idx) :
    ∃ t : Fin cfg0.N, (cfg0.win 18).flush t = true ∧ i ∈ ((cfg0.win 18).blk t).view.set := by
  have hi0 : (i 0).val < 8192 := (i 0).isLt
  have hi1 : (i 1).val < 1024 := (i 1).isLt
  have hN : (i 0).val / 128 < cfg0.N := lt_of_lt_of_eq (by omega : (i 0).val / 128 < 64) N_0.symm
  obtain ⟨t, ht⟩ : ∃ t : Fin cfg0.N, t.val = (i 0).val / 128 := ⟨⟨(i 0).val / 128, hN⟩, rfl⟩
  have ho := idx_outs t
  refine ⟨t, flush0_18 t, ?_⟩
  rw [mem_blk18]
  intro a
  match a with
  | ⟨0, _⟩ =>
    show win0_18.index t (0 : Fin 2) * 128 ≤ (i 0).val ∧ (i 0).val < win0_18.index t (0 : Fin 2) * 128 + 128
    omega
  | ⟨1, _⟩ =>
    show win0_18.index t (1 : Fin 2) * 1024 ≤ (i 1).val ∧ (i 1).val < win0_18.index t (1 : Fin 2) * 1024 + 1024
    omega

/-- After the run the belief array is the row step of every batch row. -/
theorem final18 (c : Dev nD) : (dats m 0 c).arrAt 18 cfg0.N = beliefArr m c :=
  (dats m 0 c).arrAt_eq_of_cover 18 (beliefArr m c) (fun t _ => flushed18_eq m c t) cover18

/-! ## The run, read -/

/-- Every weakly fair execution of the idealized kernel ends with the four results at the row step of every batch
    row, the arguments unchanged. -/
theorem run : θ_run defs (onTc (τ := τ) (main (F := Ideal))) ⟨m, fun _ => 0, ρ⟩ fun r => ∀ c : Dev nD,
      r.2.mem ((c : Thread nD τ).loc main_v18_0) = meanArr m c
      ∧ r.2.mem ((c : Thread nD τ).loc main_v18_1) = varArr m c
      ∧ r.2.mem ((c : Thread nD τ).loc main_v18_2) = sampleArr m c
      ∧ r.2.mem ((c : Thread nD τ).loc main_v18_3) = beliefArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final15 m c), (h c).2.1.trans (final16 m c),
      (h c).2.2.1.trans (final17 m c), (h c).2.2.2.1.trans (final18 m c), (h c).2.2.2.2⟩)
    (Value.run_blocks m ρ)

end Cert.KernelIdeal.ArrayValue

end
-- ==== Proof.RefRow.lean ====
/-
  The reference, stage by stage, is the row step of each batch row.

  The reference concatenates the state, the action and the observation along the feature axis and multiplies the
  3104-wide row by the whole first-layer matrix; a sum over the 3104 concatenated features is the sum of the three
  parts' sums, each part meeting its own rows of the matrix. Likewise the gated unit's input is the sample and the
  action laid side by side (288 features) against the transposed input matrix. Its logistic function is spelled
  `1 / (1 + exp (−x))`, which is the logistic function of the extended reals by definition. Every other stage is
  the row step's own operation on the same entries.
-/
import proofs.«153712_j6665789243871_1_alg».proof.Proof.Gen.ReferenceIdeal.Read
import proofs.«153712_j6665789243871_1_alg».proof.Proof.RowStep
import Idealize.ShloMosaic.Lib.Pipeline.Value
import Idealize.ShloMosaic.Lib.ValueIdx
import Idealize.ShloMosaic.Lib.IdealHost

noncomputable section

open scoped BigOperators

namespace Cert.ReferenceIdeal.RowValue

open Cert.ReferenceIdeal Cert.ReferenceIdeal.Gen Cert.ReferenceIdeal.Read Idealize.ShloMosaic Idealize.ShloMosaic.ValueIdx Cert.BeliefStep

variable (x0 : (⟨S8192x1024, .f32⟩ : BufTy).Contents (Elt Ideal)) (x1 : (⟨S8192x32, .f32⟩ : BufTy).Contents (Elt Ideal)) (x2 : (⟨S8192x2048, .f32⟩ : BufTy).Contents (Elt Ideal))
  (x3 : (⟨S8192x256, .f32⟩ : BufTy).Contents (Elt Ideal)) (x4 : (⟨S3104x1024, .f32⟩ : BufTy).Contents (Elt Ideal)) (x5 : (⟨S1024, .f32⟩ : BufTy).Contents (Elt Ideal))
  (x6 : (⟨S1024x512, .f32⟩ : BufTy).Contents (Elt Ideal)) (x7 : (⟨S512, .f32⟩ : BufTy).Contents (Elt Ideal)) (x8 : (⟨S3072x288, .f32⟩ : BufTy).Contents (Elt Ideal))
  (x9 : (⟨S3072x1024, .f32⟩ : BufTy).Contents (Elt Ideal)) (x10 : (⟨S3072, .f32⟩ : BufTy).Contents (Elt Ideal)) (x11 : (⟨S3072, .f32⟩ : BufTy).Contents (Elt Ideal))

local notation "ℛ" b => rowOf x0 x1 x2 x3 b
local notation "𝒲" => weightsOf x4 x5 x6 x7 x8 x9 x10 x11

/-! ## The concatenated input row, part by part -/

/-- The first 1024 features of the concatenated input row are the state. -/
theorem cat3_state (b : Fin 8192) (k : Fin 1024) :
    val_main_v0 (F := Ideal) x0 x1 x2 (ix2 b (⟨k.val, by omega⟩ : Fin 3104)) = x0 (ix2 b k) := by
  unfold val_main_v0
  exact concatenate_apply_piece (1 : Fin S8192x3104.rank)
    [⟨S8192x1024, x0⟩, ⟨S8192x32, x1⟩, ⟨S8192x2048, x2⟩]
    concatenates_S8192x1024_S8192x32_S8192x2048_S8192x3104_d1 (ix2 b (⟨k.val, by omega⟩ : Fin 3104))
    0 (by show (0 : Nat) < 3; omega) S8192x1024 x0 rfl rfl 0 rfl (ix2 b k)
    (fun b' hb' => by
      match b' with
      | ⟨0, _⟩ => rfl
      | ⟨1, _⟩ => exact absurd rfl hb')
    (by show 0 + k.val = k.val; omega)

/-- Features 1024–1055 are the action. -/
theorem cat3_action (b : Fin 8192) (k : Fin 32) :
    val_main_v0 (F := Ideal) x0 x1 x2 (ix2 b (⟨k.val + 1024, by omega⟩ : Fin 3104)) = x1 (ix2 b k) := by
  unfold val_main_v0
  exact concatenate_apply_piece (1 : Fin S8192x3104.rank)
    [⟨S8192x1024, x0⟩, ⟨S8192x32, x1⟩, ⟨S8192x2048, x2⟩]
    concatenates_S8192x1024_S8192x32_S8192x2048_S8192x3104_d1 (ix2 b (⟨k.val + 1024, by omega⟩ : Fin 3104))
    1 (by show (1 : Nat) < 3; omega) S8192x32 x1 rfl rfl 1024 rfl (ix2 b k)
    (fun b' hb' => by
      match b' with
      | ⟨0, _⟩ => rfl
      | ⟨1, _⟩ => exact absurd rfl hb')
    (by show 1024 + k.val = k.val + 1024; omega)

/-- Features 1056–3103 are the observation. -/
theorem cat3_obs (b : Fin 8192) (k : Fin 2048) :
    val_main_v0 (F := Ideal) x0 x1 x2 (ix2 b (⟨k.val + 1056, by omega⟩ : Fin 3104)) = x2 (ix2 b k) := by
  unfold val_main_v0
  exact concatenate_apply_piece (1 : Fin S8192x3104.rank)
    [⟨S8192x1024, x0⟩, ⟨S8192x32, x1⟩, ⟨S8192x2048, x2⟩]
    concatenates_S8192x1024_S8192x32_S8192x2048_S8192x3104_d1 (ix2 b (⟨k.val + 1056, by omega⟩ : Fin 3104))
    2 (by show (2 : Nat) < 3; omega) S8192x2048 x2 rfl rfl 1056 rfl (ix2 b k)
    (fun b' hb' => by
      match b' with
      | ⟨0, _⟩ => rfl
      | ⟨1, _⟩ => exact absurd rfl hb')
    (by show 1056 + k.val = k.val + 1056; omega)

/-! ## The first layer -/

/-- The left operand of the first product at output `(b, j)` and feature `k` is the input at `(b, k)`. -/
theorem lidx1 (b : Fin 8192) (j : Fin 1024) (k : Fin 3104) : lidx_main_v1 (ix2 b j) k = ix2 b k :=
  funext fun a => Fin.ext (by match a with | ⟨0, _⟩ => rfl | ⟨1, _⟩ => rfl)
/-- Its right operand is the matrix at `(k, j)`. -/
theorem ridx1 (b : Fin 8192) (j : Fin 1024) (k : Fin 3104) : ridx_main_v1 (ix2 b j) k = ix2 k j :=
  funext fun a => Fin.ext (by match a with | ⟨0, _⟩ => rfl | ⟨1, _⟩ => rfl)

/-- The product with the concatenated row is the sum of the three parts' products. -/
theorem ref_dot1 (b : Fin 8192) (j : Fin 1024) :
    val_main_v1 (F := Ideal) x0 x1 x2 x4 (ix2 b j)
      = ((∑ k, (ℛ b).s k * (𝒲).A1 k j) + (∑ k, (ℛ b).a k * (𝒲).A2 k j)) + (∑ k, (ℛ b).o k * (𝒲).A3 k j) := by
  refine (val_main_v1_apply x0 x1 x2 x4 (ix2 b j)).trans ((sum_3104 (M := EReal) (fun k : Fin 3104 =>
    (val_main_v0 (F := Ideal) x0 x1 x2) (lidx_main_v1 (ix2 b j) k) * x4 (ridx_main_v1 (ix2 b j) k))).trans ?_)
  refine congrArg₂ (· + ·) (congrArg₂ (· + ·) ?_ ?_) ?_
  · refine Finset.sum_congr rfl fun k _ => ?_
    rw [lidx1, ridx1, cat3_state]; rfl
  · refine Finset.sum_congr rfl fun k _ => ?_
    rw [lidx1, ridx1, cat3_action]; rfl
  · refine Finset.sum_congr rfl fun k _ => ?_
    rw [lidx1, ridx1, cat3_obs]; rfl

/-- The first bias broadcast over the batch reads entry `j`. -/
theorem idx_b1 (b : Fin 8192) (j : Fin 1024) : idx_main_v2 (idx_main_v3 (ix2 b j)) = ix1 j :=
  funext fun a => Fin.ext (by match a with | ⟨0, _⟩ => rfl)

/-- The hidden layer. -/
theorem ref_hidden (b : Fin 8192) (j : Fin 1024) :
    val_main_v5 (F := Ideal) x0 x1 x2 x4 x5 (ix2 b j) = hidden (ℛ b) (𝒲) j := by
  rw [val_main_v5_apply, val_main_v4_apply, ref_dot1 x0 x1 x2 x3 x4 x5 x6 x7 x8 x9 x10 x11, val_main_v3_apply,
    val_main_v2_apply, idx_b1, val_main_call0_v0_apply, val_main_call0_cst_apply]
  rfl

/-! ## The second layer, its halves, the sample -/

/-- The left operand of the second product at output `(b, j)` and hidden unit `k` is the hidden layer at `(b, k)`. -/
theorem lidx6 (b : Fin 8192) (j : Fin 512) (k : Fin 1024) : lidx_main_v6 (ix2 b j) k = ix2 b k :=
  funext fun a => Fin.ext (by match a with | ⟨0, _⟩ => rfl | ⟨1, _⟩ => rfl)
/-- Its right operand is the matrix at `(k, j)`. -/
theorem ridx6 (b : Fin 8192) (j : Fin 512) (k : Fin 1024) : ridx_main_v6 (ix2 b j) k = ix2 k j :=
  funext fun a => Fin.ext (by match a with | ⟨0, _⟩ => rfl | ⟨1, _⟩ => rfl)
/-- The second bias broadcast over the batch reads entry `j`. -/
theorem idx_b2 (b : Fin 8192) (j : Fin 512) : idx_main_v7 (idx_main_v8 (ix2 b j)) = ix1 j :=
  funext fun a => Fin.ext (by match a with | ⟨0, _⟩ => rfl)

/-- The second layer's output. -/
theorem ref_out (b : Fin 8192) (j : Fin 512) :
    val_main_v9 (F := Ideal) x0 x1 x2 x4 x5 x6 x7 (ix2 b j) = out (ℛ b) (𝒲) j := by
  rw [val_main_v9_apply, val_main_v6_apply, val_main_v8_apply, val_main_v7_apply, idx_b2]
  unfold out
  congr 1
  refine Finset.sum_congr rfl fun k _ => ?_
  rw [lidx6, ridx6, ref_hidden x0 x1 x2 x3 x4 x5 x6 x7 x8 x9 x10 x11]; rfl

/-- The mean is the left half of the output. -/
theorem idx10 (b : Fin 8192) (j : Fin 256) : idx_main_v10 (ix2 b j) = ix2 b (⟨j.val, by omega⟩ : Fin 512) :=
  funext fun a => Fin.ext (by match a with | ⟨0, _⟩ => rfl | ⟨1, _⟩ => rfl)
/-- The variance is the right half. -/
theorem idx11 (b : Fin 8192) (j : Fin 256) : idx_main_v11 (ix2 b j) = ix2 b (⟨j.val + 256, by omega⟩ : Fin 512) :=
  funext fun a => Fin.ext (by match a with | ⟨0, _⟩ => rfl | ⟨1, _⟩ => show 256 + j.val = j.val + 256; omega)

/-- The mean. -/
theorem ref_mean (b : Fin 8192) (j : Fin 256) :
    val_main_v10 (F := Ideal) x0 x1 x2 x4 x5 x6 x7 (ix2 b j) = mean (ℛ b) (𝒲) j := by
  rw [val_main_v10_apply, idx10, ref_out x0 x1 x2 x3 x4 x5 x6 x7 x8 x9 x10 x11]; rfl

/-- The variance. -/
theorem ref_var (b : Fin 8192) (j : Fin 256) :
    val_main_v11 (F := Ideal) x0 x1 x2 x4 x5 x6 x7 (ix2 b j) = var (ℛ b) (𝒲) j := by
  rw [val_main_v11_apply, idx11, ref_out x0 x1 x2 x3 x4 x5 x6 x7 x8 x9 x10 x11]; rfl

/-- The sample. -/
theorem ref_sample (b : Fin 8192) (j : Fin 256) :
    val_main_v14 (F := Ideal) x0 x1 x2 x3 x4 x5 x6 x7 (ix2 b j) = sample (ℛ b) (𝒲) j := by
  rw [val_main_v14_apply, val_main_v13_apply, val_main_v12_apply, ref_mean x0 x1 x2 x3 x4 x5 x6 x7 x8 x9 x10 x11,
    ref_var x0 x1 x2 x3 x4 x5 x6 x7 x8 x9 x10 x11]
  rfl

/-! ## The gated unit -/

/-- The first 256 features of the gated unit's input row are the sample. -/
theorem cat2_sample (b : Fin 8192) (k : Fin 256) :
    val_main_v15 (F := Ideal) x0 x1 x2 x3 x4 x5 x6 x7 (ix2 b (⟨k.val, by omega⟩ : Fin 288))
      = val_main_v14 (F := Ideal) x0 x1 x2 x3 x4 x5 x6 x7 (ix2 b k) := by
  unfold val_main_v15
  exact concatenate_apply_piece (1 : Fin S8192x288.rank)
    [⟨S8192x256, val_main_v14 (F := Ideal) x0 x1 x2 x3 x4 x5 x6 x7⟩, ⟨S8192x32, x1⟩]
    concatenates_S8192x256_S8192x32_S8192x288_d1 (ix2 b (⟨k.val, by omega⟩ : Fin 288))
    0 (by show (0 : Nat) < 2; omega) S8192x256 (val_main_v14 (F := Ideal) x0 x1 x2 x3 x4 x5 x6 x7) rfl rfl 0 rfl (ix2 b k)
    (fun b' hb' => by
      match b' with
      | ⟨0, _⟩ => rfl
      | ⟨1, _⟩ => exact absurd rfl hb')
    (by show 0 + k.val = k.val; omega)

/-- Features 256–287 are the action. -/
theorem cat2_action (b : Fin 8192) (k : Fin 32) :
    val_main_v15 (F := Ideal) x0 x1 x2 x3 x4 x5 x6 x7 (ix2 b (⟨k.val + 256, by omega⟩ : Fin 288))
      = x1 (ix2 b k) := by
  unfold val_main_v15
  exact concatenate_apply_piece (1 : Fin S8192x288.rank)
    [⟨S8192x256, val_main_v14 (F := Ideal) x0 x1 x2 x3 x4 x5 x6 x7⟩, ⟨S8192x32, x1⟩]
    concatenates_S8192x256_S8192x32_S8192x288_d1 (ix2 b (⟨k.val + 256, by omega⟩ : Fin 288))
    1 (by show (1 : Nat) < 2; omega) S8192x32 (x1) rfl rfl 256 rfl (ix2 b k)
    (fun b' hb' => by
      match b' with
      | ⟨0, _⟩ => rfl
      | ⟨1, _⟩ => exact absurd rfl hb')
    (by show 256 + k.val = k.val + 256; omega)

/-- The left operand of the gated unit's input product at output `(b, q)` and feature `k` is the input at `(b, k)`. -/
theorem lidx17 (b : Fin 8192) (q : Fin 3072) (k : Fin 288) : lidx_main_v17 (ix2 b q) k = ix2 b k :=
  funext fun a => Fin.ext (by match a with | ⟨0, _⟩ => rfl | ⟨1, _⟩ => rfl)
/-- Its right operand is the transposed matrix at `(k, q)`, the argument at `(q, k)`. -/
theorem ridx17 (b : Fin 8192) (q : Fin 3072) (k : Fin 288) : idx_main_v16 (ridx_main_v17 (ix2 b q) k) = ix2 q k :=
  funext fun a => Fin.ext (by match a with | ⟨0, _⟩ => rfl | ⟨1, _⟩ => rfl)
/-- The input bias broadcast over the batch reads entry `q`. -/
theorem idx_bi (b : Fin 8192) (q : Fin 3072) : idx_main_v18 (idx_main_v19 (ix2 b q)) = ix1 q :=
  funext fun a => Fin.ext (by match a with | ⟨0, _⟩ => rfl)

/-- The input pre-activations: the product with the sample and the action laid side by side. -/
theorem ref_gi (b : Fin 8192) (q : Fin 3072) :
    val_main_v20 (F := Ideal) x0 x1 x2 x3 x4 x5 x6 x7 x8 x10 (ix2 b q) = gi (ℛ b) (𝒲) q := by
  rw [val_main_v20_apply, val_main_v19_apply, val_main_v18_apply, idx_bi]
  unfold gi
  congr 1
  refine (val_main_v17_apply x0 x1 x2 x3 x4 x5 x6 x7 x8 (ix2 b q)).trans ((sum_288 (M := EReal) (fun k : Fin 288 =>
    (val_main_v15 (F := Ideal) x0 x1 x2 x3 x4 x5 x6 x7) (lidx_main_v17 (ix2 b q) k)
      * (val_main_v16 (F := Ideal) x8) (ridx_main_v17 (ix2 b q) k))).trans ?_)
  congr 1
  · refine Finset.sum_congr rfl fun k _ => ?_
    rw [lidx17, val_main_v16_apply, ridx17, cat2_sample, ref_sample x0 x1 x2 x3 x4 x5 x6 x7 x8 x9 x10 x11]; rfl
  · refine Finset.sum_congr rfl fun k _ => ?_
    rw [lidx17, val_main_v16_apply, ridx17, cat2_action]; rfl

/-- The left operand of the state product at output `(b, q)` and unit `k` is the state at `(b, k)`. -/
theorem lidx22 (b : Fin 8192) (q : Fin 3072) (k : Fin 1024) : lidx_main_v22 (ix2 b q) k = ix2 b k :=
  funext fun a => Fin.ext (by match a with | ⟨0, _⟩ => rfl | ⟨1, _⟩ => rfl)
/-- Its right operand is the transposed state matrix at `(k, q)`, the argument at `(q, k)`. -/
theorem ridx22 (b : Fin 8192) (q : Fin 3072) (k : Fin 1024) : idx_main_v21 (ridx_main_v22 (ix2 b q) k) = ix2 q k :=
  funext fun a => Fin.ext (by match a with | ⟨0, _⟩ => rfl | ⟨1, _⟩ => rfl)
/-- The state bias broadcast over the batch reads entry `q`. -/
theorem idx_bh (b : Fin 8192) (q : Fin 3072) : idx_main_v23 (idx_main_v24 (ix2 b q)) = ix1 q :=
  funext fun a => Fin.ext (by match a with | ⟨0, _⟩ => rfl)

/-- The state pre-activations. -/
theorem ref_gh (b : Fin 8192) (q : Fin 3072) :
    val_main_v25 (F := Ideal) x0 x9 x11 (ix2 b q) = gh (ℛ b) (𝒲) q := by
  rw [val_main_v25_apply, val_main_v22_apply, val_main_v24_apply, val_main_v23_apply, idx_bh]
  unfold gh
  congr 1
  refine Finset.sum_congr rfl fun k _ => ?_
  rw [lidx22, val_main_v21_apply, ridx22]; rfl

/-- The first third of the input pre-activations. -/
theorem idx_third0 (b : Fin 8192) (j : Fin 1024) : idx_main_v26 (ix2 b j) = ix2 b (⟨j.val, by omega⟩ : Fin 3072) :=
  funext fun a => Fin.ext (by match a with | ⟨0, _⟩ => rfl | ⟨1, _⟩ => rfl)
/-- Their second third. -/
theorem idx_third1 (b : Fin 8192) (j : Fin 1024) : idx_main_v27 (ix2 b j) = ix2 b (⟨j.val + 1024, by omega⟩ : Fin 3072) :=
  funext fun a => Fin.ext (by match a with | ⟨0, _⟩ => rfl | ⟨1, _⟩ => show 1024 + j.val = j.val + 1024; omega)
/-- Their last third. -/
theorem idx_third2 (b : Fin 8192) (j : Fin 1024) : idx_main_v28 (ix2 b j) = ix2 b (⟨j.val + 2048, by omega⟩ : Fin 3072) :=
  funext fun a => Fin.ext (by match a with | ⟨0, _⟩ => rfl | ⟨1, _⟩ => show 2048 + j.val = j.val + 2048; omega)
/-- The first third of the state pre-activations. -/
theorem idx_third0' (b : Fin 8192) (j : Fin 1024) : idx_main_v29 (ix2 b j) = ix2 b (⟨j.val, by omega⟩ : Fin 3072) :=
  funext fun a => Fin.ext (by match a with | ⟨0, _⟩ => rfl | ⟨1, _⟩ => rfl)
/-- Their second third. -/
theorem idx_third1' (b : Fin 8192) (j : Fin 1024) : idx_main_v30 (ix2 b j) = ix2 b (⟨j.val + 1024, by omega⟩ : Fin 3072) :=
  funext fun a => Fin.ext (by match a with | ⟨0, _⟩ => rfl | ⟨1, _⟩ => show 1024 + j.val = j.val + 1024; omega)
/-- Their last third. -/
theorem idx_third2' (b : Fin 8192) (j : Fin 1024) : idx_main_v31 (ix2 b j) = ix2 b (⟨j.val + 2048, by omega⟩ : Fin 3072) :=
  funext fun a => Fin.ext (by match a with | ⟨0, _⟩ => rfl | ⟨1, _⟩ => show 2048 + j.val = j.val + 2048; omega)

/-- The reference's spelling of the logistic function is the logistic function. -/
theorem logistic_spelled (x : EReal) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = _
  rw [Ideal.ofBits_one_f32]
  rfl

/-- The reset gate. -/
theorem ref_rgate (b : Fin 8192) (j : Fin 1024) :
    val_main_v38 (F := Ideal) x0 x1 x2 x3 x4 x5 x6 x7 x8 x9 x10 x11 (ix2 b j) = rgate (ℛ b) (𝒲) j := by
  rw [val_main_v38_apply, val_main_v37_apply, val_main_cst_0_apply, val_main_v36_apply, val_main_v35_apply,
    val_main_cst_apply, val_main_v34_apply, val_main_v33_apply, logistic_spelled, val_main_v32_apply,
    val_main_v26_apply, val_main_v29_apply, idx_third0, idx_third0', ref_gi x0 x1 x2 x3 x4 x5 x6 x7 x8 x9 x10 x11, ref_gh x0 x1 x2 x3 x4 x5 x6 x7 x8 x9 x10 x11]
  rfl

/-- The update gate. -/
theorem ref_zgate (b : Fin 8192) (j : Fin 1024) :
    val_main_v45 (F := Ideal) x0 x1 x2 x3 x4 x5 x6 x7 x8 x9 x10 x11 (ix2 b j) = zgate (ℛ b) (𝒲) j := by
  rw [val_main_v45_apply, val_main_v44_apply, val_main_cst_2_apply, val_main_v43_apply, val_main_v42_apply,
    val_main_cst_1_apply, val_main_v41_apply, val_main_v40_apply, logistic_spelled, val_main_v39_apply,
    val_main_v27_apply, val_main_v30_apply, idx_third1, idx_third1', ref_gi x0 x1 x2 x3 x4 x5 x6 x7 x8 x9 x10 x11, ref_gh x0 x1 x2 x3 x4 x5 x6 x7 x8 x9 x10 x11]
  rfl

/-- The candidate state. -/
theorem ref_cand (b : Fin 8192) (j : Fin 1024) :
    val_main_v48 (F := Ideal) x0 x1 x2 x3 x4 x5 x6 x7 x8 x9 x10 x11 (ix2 b j) = cand (ℛ b) (𝒲) j := by
  rw [val_main_v48_apply, val_main_v47_apply, val_main_v46_apply, ref_rgate x0 x1 x2 x3 x4 x5 x6 x7 x8 x9 x10 x11, val_main_v28_apply,
    val_main_v31_apply, idx_third2, idx_third2', ref_gi x0 x1 x2 x3 x4 x5 x6 x7 x8 x9 x10 x11, ref_gh x0 x1 x2 x3 x4 x5 x6 x7 x8 x9 x10 x11]
  rfl

/-- The new belief. -/
theorem ref_belief (b : Fin 8192) (j : Fin 1024) :
    val_main_v53 (F := Ideal) x0 x1 x2 x3 x4 x5 x6 x7 x8 x9 x10 x11 (ix2 b j) = belief (ℛ b) (𝒲) j := by
  rw [val_main_v53_apply, val_main_v51_apply, val_main_v52_apply, val_main_v50_apply, val_main_v49_apply,
    val_main_cst_3_apply, ref_cand x0 x1 x2 x3 x4 x5 x6 x7 x8 x9 x10 x11, ref_zgate x0 x1 x2 x3 x4 x5 x6 x7 x8 x9 x10 x11]
  rfl

/-! ## The four results as whole arrays -/

/-- The reference's mean array, entry by entry, is the row step's. -/
theorem ref_meanArr :
    val_main_v10 (F := Ideal) x0 x1 x2 x4 x5 x6 x7 = fun i => mean (ℛ (i 0)) (𝒲) (i 1) := by
  funext i
  obtain ⟨b, j, rfl⟩ : ∃ (b : Fin 8192) (j : Fin 256), i = ix2 b j := ⟨i 0, i 1, eq_ix2 i⟩
  exact ref_mean x0 x1 x2 x3 x4 x5 x6 x7 x8 x9 x10 x11 b j

/-- The variance array. -/
theorem ref_varArr :
    val_main_v11 (F := Ideal) x0 x1 x2 x4 x5 x6 x7 = fun i => var (ℛ (i 0)) (𝒲) (i 1) := by
  funext i
  obtain ⟨b, j, rfl⟩ : ∃ (b : Fin 8192) (j : Fin 256), i = ix2 b j := ⟨i 0, i 1, eq_ix2 i⟩
  exact ref_var x0 x1 x2 x3 x4 x5 x6 x7 x8 x9 x10 x11 b j

/-- The sample array. -/
theorem ref_sampleArr :
    val_main_v14 (F := Ideal) x0 x1 x2 x3 x4 x5 x6 x7 = fun i => sample (ℛ (i 0)) (𝒲) (i 1) := by
  funext i
  obtain ⟨b, j, rfl⟩ : ∃ (b : Fin 8192) (j : Fin 256), i = ix2 b j := ⟨i 0, i 1, eq_ix2 i⟩
  exact ref_sample x0 x1 x2 x3 x4 x5 x6 x7 x8 x9 x10 x11 b j

/-- The belief array. -/
theorem ref_beliefArr :
    val_main_v53 (F := Ideal) x0 x1 x2 x3 x4 x5 x6 x7 x8 x9 x10 x11 = fun i => belief (ℛ (i 0)) (𝒲) (i 1) := by
  funext i
  obtain ⟨b, j, rfl⟩ : ∃ (b : Fin 8192) (j : Fin 1024), i = ix2 b j := ⟨i 0, i 1, eq_ix2 i⟩
  exact ref_belief x0 x1 x2 x3 x4 x5 x6 x7 x8 x9 x10 x11 b j

end Cert.ReferenceIdeal.RowValue

end
-- ==== Proof.lean ====
/-
  The recurrent state-space step: a Pallas kernel over blocks of 128 batch rows against its jnp reference.

  Both programs compute, for every batch row, the same row step on the extended reals (Proof/RowStep.lean): a
  two-layer perceptron giving the mean and the variance of a diagonal Gaussian, the reparameterized sample
  `mean + √variance · noise`, and a gated recurrent update of the belief state.

  The kernel cuts the first layer's weight matrix into the row blocks that meet the state, the action and the
  observation and adds three products; the reference concatenates the three inputs and takes one product. The two
  agree because a sum over the concatenated index is the sum of the parts' sums — commutativity and associativity
  of addition only, so no finiteness of the inputs is used. The same holds for the gated unit's input product
  (sample and action side by side). The kernel's logistic operation is `1 / (1 + exp (−x))` on the extended reals
  by definition, which is how the reference spells it. Changes of float format are the identity.

  Proof/KernelRow.lean reads the kernel's block results at a row and a column; Proof/ArrayValue.lean carries them
  from blocks to whole arrays (the 64 blocks tile the batch axis; the weight arrays the host prepares are slices,
  transposes and reshapes of the arguments); Proof/RefRow.lean reads the reference stage by stage. The frames of
  the two kernel programs are the generated ones; the reference's frame is its generated run with the results
  dropped. The idealization rewrote nothing, so the preservation claim is trivial.
-/
import proofs.«153712_j6665789243871_1_alg».proof.Defs
import proofs.«153712_j6665789243871_1_alg».proof.Proof.Gen.Kernel
import proofs.«153712_j6665789243871_1_alg».proof.Proof.Gen.Kernel.Skeleton
import proofs.«153712_j6665789243871_1_alg».proof.Proof.Gen.Kernel.Launch
import proofs.«153712_j6665789243871_1_alg».proof.Proof.Gen.Kernel.Points
import proofs.«153712_j6665789243871_1_alg».proof.Proof.Gen.Kernel.Frame
import proofs.«153712_j6665789243871_1_alg».proof.Proof.Gen.KernelIdeal
import proofs.«153712_j6665789243871_1_alg».proof.Proof.Gen.KernelIdeal.Skeleton
import proofs.«153712_j6665789243871_1_alg».proof.Proof.Gen.KernelIdeal.Launch
import proofs.«153712_j6665789243871_1_alg».proof.Proof.Gen.KernelIdeal.Points
import proofs.«153712_j6665789243871_1_alg».proof.Proof.Gen.KernelIdeal.Frame
import proofs.«153712_j6665789243871_1_alg».proof.Proof.Gen.ReferenceIdeal
import proofs.«153712_j6665789243871_1_alg».proof.Proof.Gen.Pre_finite_inputs
import proofs.«153712_j6665789243871_1_alg».proof.Proof.Gen.KernelIdeal.Value
import proofs.«153712_j6665789243871_1_alg».proof.Proof.Gen.ReferenceIdeal.Run
import proofs.«153712_j6665789243871_1_alg».proof.Proof.Gen.ReferenceIdeal.Read
import proofs.«153712_j6665789243871_1_alg».proof.Proof.ArrayValue
import proofs.«153712_j6665789243871_1_alg».proof.Proof.RefRow
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the four results dropped. -/
theorem frame_reference : Cert.frame_ReferenceIdeal := fun m ρ _ =>
  (θ_run Cert.ReferenceIdeal.defs _ _).mono (fun _ h c => (h c).2.2.2.2)
    (Cert.ReferenceIdeal.Value.run (F := Ideal) m ρ)

/-- On the extended reals the idealized kernel and the idealized reference, run from memories that agree on the
    twelve arguments, both end with the mean, the variance, the sample and the new belief of every batch row at the
    row step of that row. -/
theorem algebraic : Cert.algebraic_KernelIdeal_ReferenceIdeal := by
  intro m ρ m' ρ' _ hagree
  refine ⟨fun c => Cert.KernelIdeal.ArrayValue.meanArr m c, fun c => Cert.KernelIdeal.ArrayValue.varArr m c,
    fun c => Cert.KernelIdeal.ArrayValue.sampleArr m c, fun c => Cert.KernelIdeal.ArrayValue.beliefArr m c,
    Cert.KernelIdeal.ArrayValue.run m ρ, ?_⟩
  refine (θ_run Cert.ReferenceIdeal.defs _ _).mono (fun _ h c => ?_)
    (Cert.ReferenceIdeal.Value.run (F := Ideal) m' ρ')
  obtain ⟨h10, h11, h14, h53, hargs⟩ := h c
  obtain ⟨e0, e1, e2, e3, e4, e5, e6, e7, e8, e9, e10, e11⟩ := hagree c
  refine ⟨h10.trans ?_, h11.trans ?_, h14.trans ?_, h53.trans ?_, hargs⟩
  · rw [Cert.ReferenceIdeal.Read.val_main_v10_eq, e0, e1, e2, e4, e5, e6, e7]
    exact Cert.ReferenceIdeal.RowValue.ref_meanArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
  · rw [Cert.ReferenceIdeal.Read.val_main_v11_eq, e0, e1, e2, e4, e5, e6, e7]
    exact Cert.ReferenceIdeal.RowValue.ref_varArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
  · rw [Cert.ReferenceIdeal.Read.val_main_v14_eq, e0, e1, e2, e3, e4, e5, e6, e7]
    exact Cert.ReferenceIdeal.RowValue.ref_sampleArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
  · rw [Cert.ReferenceIdeal.Read.val_main_v53_eq, e0, e1, e2, e3, e4, e5, e6, e7, e8, e9, e10, e11]
    exact Cert.ReferenceIdeal.RowValue.ref_beliefArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
